-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S1000x512 : Shape := ⟨2, ![1000, 512]⟩
abbrev S10000x1936 : Shape := ⟨2, ![10000, 1936]⟩
abbrev S400x10000 : Shape := ⟨2, ![400, 10000]⟩
abbrev S400x512 : Shape := ⟨2, ![400, 512]⟩
abbrev S400x1936 : Shape := ⟨2, ![400, 1936]⟩
abbrev S400x8064 : Shape := ⟨2, ![400, 8064]⟩
abbrev S8064x512 : Shape := ⟨2, ![8064, 512]⟩
abbrev S1936x512 : Shape := ⟨2, ![1936, 512]⟩

abbrev nBuf : Space → Nat
  | .hbm => 18
  | .vmem => 31
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x512, .f32⟩
  | .hbm, ⟨9, _⟩ => ⟨S10000x512, .bf16⟩
  | .hbm, ⟨10, _⟩ => ⟨S512x512, .bf16⟩
  | .hbm, ⟨11, _⟩ => ⟨S1x512, .f32⟩
  | .hbm, ⟨12, _⟩ => ⟨S10000x512, .bf16⟩
  | .hbm, ⟨13, _⟩ => ⟨S10000x1936, .bf16⟩
  | .hbm, ⟨14, _⟩ => ⟨S512x512, .bf16⟩
  | .hbm, ⟨15, _⟩ => ⟨S1x512, .f32⟩
  | .hbm, ⟨16, _⟩ => ⟨S10000x512, .bf16⟩
  | .hbm, ⟨17, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .bf16⟩
  | .local _ .vmem, ⟨5, _⟩ => ⟨S1000x512, .bf16⟩
  | .local _ .vmem, ⟨6, _⟩ => ⟨S400x10000, .f32⟩
  | .local _ .vmem, ⟨7, _⟩ => ⟨S400x10000, .f32⟩
  | .local _ .vmem, ⟨8, _⟩ => ⟨S10000x512, .bf16⟩
  | .local _ .vmem, ⟨9, _⟩ => ⟨S512x512, .bf16⟩
  | .local _ .vmem, ⟨10, _⟩ => ⟨S1x512, .f32⟩
  | .local _ .vmem, ⟨11, _⟩ => ⟨S400x512, .bf16⟩
  | .local _ .vmem, ⟨12, _⟩ => ⟨S400x512, .bf16⟩
  | .local _ .vmem, ⟨13, _⟩ => ⟨S400x1936, .bf16⟩
  | .local _ .vmem, ⟨14, _⟩ => ⟨S400x1936, .bf16⟩
  | .local _ .vmem, ⟨15, _⟩ => ⟨S400x8064, .f32⟩
  | .local _ .vmem, ⟨16, _⟩ => ⟨S400x8064, .f32⟩
  | .local _ .vmem, ⟨17, _⟩ => ⟨S400x1936, .bf16⟩
  | .local _ .vmem, ⟨18, _⟩ => ⟨S400x1936, .bf16⟩
  | .local _ .vmem, ⟨19, _⟩ => ⟨S10000x512, .bf16⟩
  | .local _ .vmem, ⟨20, _⟩ => ⟨S512x512, .bf16⟩
  | .local _ .vmem, ⟨21, _⟩ => ⟨S1x512, .f32⟩
  | .local _ .vmem, ⟨22, _⟩ => ⟨S400x512, .bf16⟩
  | .local _ .vmem, ⟨23, _⟩ => ⟨S400x512, .bf16⟩
  | .local _ .vmem, ⟨24, _⟩ => ⟨S400x8064, .f32⟩
  | .local _ .vmem, ⟨25, _⟩ => ⟨S400x8064, .f32⟩
  | .local _ .vmem, ⟨26, _⟩ => ⟨S400x1936, .bf16⟩
  | .local _ .vmem, ⟨27, _⟩ => ⟨S400x1936, .bf16⟩
  | .local _ .vmem, ⟨28, _⟩ => ⟨S10000x512, .bf16⟩
  | .local _ .vmem, ⟨29, _⟩ => ⟨S400x512, .f32⟩
  | .local _ .vmem, ⟨30, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x1936 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x8064 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x1936 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x8064 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x1936 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  bitsLt_bf16_f32 : FTy.bits .bf16 < FTy.bits .f32
  packedbf16_S1000x512_S1000x512_0_0 : (Rect.unit (s := S1000x512) ![0, 0] S1000x512.size inb_S1000x512_S1000x512_0_0).PackedRows (EltTy.packing .bf16)
  inb_S400x10000_S400x10000_0_0 : ∀ a, (![0, 0] : Fin 2 → Nat) a + S400x10000.size a ≤ S400x10000.size a
  h_S400x10000 : 0 < S400x10000.numel
  slices_S400x10000_o0_8064_S400x1936 : S400x10000.Slices ![0, 8064] S400x1936
  inb_S400x1936_S400x1936_0_0 : ∀ a, (![0, 0] : Fin 2 → Nat) a + S400x1936.size a ≤ S400x1936.size a
  h_S400x1936 : 0 < S400x1936.numel
  packedbf16_S400x1936_S400x1936_0_0 : (Rect.unit (s := S400x1936) ![0, 0] S400x1936.size inb_S400x1936_S400x1936_0_0).PackedRows (EltTy.packing .bf16)
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  shapeCasts_S512x512_S512x512 : S512x512.ShapeCasts S512x512
  broadcasts_S1x512_S400x512 : S1x512.Broadcasts S400x512
  inb_S400x512_S400x512_0_0 : ∀ a, (![0, 0] : Fin 2 → Nat) a + S400x512.size a ≤ S400x512.size a
  h_S400x512 : 0 < S400x512.numel
  packedbf16_S400x512_S400x512_0_0 : (Rect.unit (s := S400x512) ![0, 0] S400x512.size inb_S400x512_S400x512_0_0).PackedRows (EltTy.packing .bf16)
  inb_S400x8064_S400x8064_0_0 : ∀ a, (![0, 0] : Fin 2 → Nat) a + S400x8064.size a ≤ S400x8064.size a
  h_S400x8064 : 0 < S400x8064.numel
  inb_S10000x512_S8064x512_0_0 : ∀ a, (![0, 0] : Fin 2 → Nat) a + S8064x512.size a ≤ S10000x512.size a
  h_S8064x512 : 0 < S8064x512.numel
  shapeCasts_S8064x512_S8064x512 : S8064x512.ShapeCasts S8064x512
  shapeCasts_S400x1936_S400x1936 : S400x1936.ShapeCasts S400x1936
  inb_S10000x512_S1936x512_8064_0 : ∀ a, (![8064, 0] : Fin 2 → Nat) a + S1936x512.size a ≤ S10000x512.size a
  h_S1936x512 : 0 < S1936x512.numel
  shapeCasts_S1936x512_S1936x512 : S1936x512.ShapeCasts S1936x512
  dot_S1000x512_S512x512_S1000x512_1_0_0_1_n_n_wf : DotDims.WF S1000x512 S512x512 S1000x512 [1] [0] [0] [1] [] []
  dot_S400x10000_S10000x512_S400x512_1_0_0_1_n_n_wf : DotDims.WF S400x10000 S10000x512 S400x512 [1] [0] [0] [1] [] []
  dot_S400x512_S512x512_S400x512_1_0_0_1_n_n_wf : DotDims.WF S400x512 S512x512 S400x512 [1] [0] [0] [1] [] []
  dot_S400x8064_S8064x512_S400x512_1_0_0_1_n_n_wf : DotDims.WF S400x8064 S8064x512 S400x512 [1] [0] [0] [1] [] []
  dot_S400x1936_S1936x512_S400x512_1_0_0_1_n_n_wf : DotDims.WF S400x1936 S1936x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .bf16 = 32 ∨ (Rect.block (s := S10000x512) S1000x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x512.size a ≤ S10000x512.size a
  hwx1_4 : ∀ i : grid1.Coords, EltTy.bits .bf16 = 32 ∨ (Rect.block (s := S10000x512) S400x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x1936.size a ≤ S10000x1936.size a
  hwx1_5 : ∀ i : grid1.Coords, EltTy.bits .bf16 = 32 ∨ (Rect.block (s := S10000x1936) S400x1936.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S400x8064.size a < S10000x10000.size a
  hwx2_0 : ∀ i : grid2.Coords, EltTy.bits .f32 = 32 ∨ (Rect.unit (s := S10000x10000) (fun a => cc2_transform_0 i a * S400x8064.size a) (fun a => (Pipeline.Clip.of (cc2_transform_0 i a) (S400x8064.size a) (S10000x10000.size a)).extent (S400x8064.size a)) fun a => Pipeline.Clip.inb (Pipeline.Clip.ok_of (hstart2_0 i a))).WholeWords (EltTy.packing .f32)
  hwxs2_0 : ∀ i : grid2.Coords, EltTy.bits .f32 = 32 ∨ (Rect.unit (s := S400x8064) (fun _ => 0) (fun a => (Pipeline.Clip.of (cc2_transform_0 i a) (S400x8064.size a) (S10000x10000.size a)).extent (S400x8064.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x1936.size a ≤ S10000x1936.size a
  hwx2_1 : ∀ i : grid2.Coords, EltTy.bits .bf16 = 32 ∨ (Rect.block (s := S10000x1936) S400x1936.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x512.size a ≤ S10000x512.size a
  hwx2_2 : ∀ i : grid2.Coords, EltTy.bits .bf16 = 32 ∨ (Rect.block (s := S10000x512) S10000x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x512.size a ≤ S10000x512.size a
  hwx2_5 : ∀ i : grid2.Coords, EltTy.bits .bf16 = 32 ∨ (Rect.block (s := S10000x512) S400x512.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S400x8064.size a < S10000x10000.size a
  hwx3_0 : ∀ i : grid3.Coords, EltTy.bits .f32 = 32 ∨ (Rect.unit (s := S10000x10000) (fun a => cc3_transform_0 i a * S400x8064.size a) (fun a => (Pipeline.Clip.of (cc3_transform_0 i a) (S400x8064.size a) (S10000x10000.size a)).extent (S400x8064.size a)) fun a => Pipeline.Clip.inb (Pipeline.Clip.ok_of (hstart3_0 i a))).WholeWords (EltTy.packing .f32)
  hwxs3_0 : ∀ i : grid3.Coords, EltTy.bits .f32 = 32 ∨ (Rect.unit (s := S400x8064) (fun _ => 0) (fun a => (Pipeline.Clip.of (cc3_transform_0 i a) (S400x8064.size a) (S10000x10000.size a)).extent (S400x8064.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x1936.size a ≤ S10000x1936.size a
  hwx3_1 : ∀ i : grid3.Coords, EltTy.bits .bf16 = 32 ∨ (Rect.block (s := S10000x1936) S400x1936.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x512.size a ≤ S10000x512.size a
  hwx3_2 : ∀ i : grid3.Coords, EltTy.bits .bf16 = 32 ∨ (Rect.block (s := S10000x512) S10000x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x512.size a ≤ S10000x512.size a
  hwx3_3 : ∀ i : grid3.Coords, EltTy.bits .f32 = 32 ∨ (Rect.block (s := S10000x512) S400x512.size (cc3_transform_3 i) (hinb3_3 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x8064_S8064x512_S400x512_1_0_0_1_n_n : DotDims S400x8064 S8064x512 S400x512 where
  lhsContracting := [1]
  rhsContracting := [0]
  lhsNonContracting := [0]
  rhsNonContracting := [1]
  lhsBatch := []
  rhsBatch := []
  wf := dot_S400x8064_S8064x512_S400x512_1_0_0_1_n_n_wf
def dot_S400x1936_S1936x512_S400x512_1_0_0_1_n_n : DotDims S400x1936 S1936x512 S400x512 where
  lhsContracting := [1]
  rhsContracting := [0]
  lhsNonContracting := [0]
  rhsNonContracting := [1]
  lhsBatch := []
  rhsBatch := []
  wf := dot_S400x1936_S1936x512_S400x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S400x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S400x1936.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_arg1) S400x8064.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v4_1) S400x1936.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S10000x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S400x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpecClip (Memref.whole main_arg1) S400x8064.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v4_1) S400x1936.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S10000x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S400x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S10000x512, .f32⟩
  | .hbm, ⟨9, _⟩ => ⟨S1x512, .f32⟩
  | .hbm, ⟨10, _⟩ => ⟨S10000x512, .f32⟩
  | .hbm, ⟨11, _⟩ => ⟨S10000x512, .f32⟩
  | .hbm, ⟨12, _⟩ => ⟨S10000x512, .f32⟩
  | .hbm, ⟨13, _⟩ => ⟨S_, .f32⟩
  | .hbm, ⟨14, _⟩ => ⟨S10000x512, .f32⟩
  | .hbm, ⟨15, _⟩ => ⟨S10000x512, .f32⟩
  | .hbm, ⟨16, _⟩ => ⟨S10000x512, .f32⟩
  | .hbm, ⟨17, _⟩ => ⟨S1x512, .f32⟩
  | .hbm, ⟨18, _⟩ => ⟨S10000x512, .f32⟩
  | .hbm, ⟨19, _⟩ => ⟨S10000x512, .f32⟩
  | .hbm, ⟨20, _⟩ => ⟨S10000x512, .f32⟩
  | .hbm, ⟨21, _⟩ => ⟨S_, .f32⟩
  | .hbm, ⟨22, _⟩ => ⟨S10000x512, .f32⟩
  | .hbm, ⟨23, _⟩ => ⟨S10000x512, .f32⟩
  | .hbm, ⟨24, _⟩ => ⟨S10000x512, .f32⟩
  | .hbm, ⟨25, _⟩ => ⟨S1x512, .f32⟩
  | .hbm, ⟨26, _⟩ => ⟨S10000x512, .f32⟩
  | .hbm, ⟨27, _⟩ => ⟨S10000x512, .f32⟩
  | .hbm, ⟨28, _⟩ => ⟨S10000x512, .f32⟩
  | .hbm, ⟨29, _⟩ => ⟨S_, .f32⟩
  | .hbm, ⟨30, _⟩ => ⟨S10000x512, .f32⟩
  | .hbm, ⟨31, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.Reg0.lean ====
/-
  Region 0 of the kernel's @main: the affine map of the first layer, t1 = x · W1 + b1, computed in ten
  row blocks of 1000. Stated at any float instance: what each point's body finds in its staging buffers
  (the blocks of x, all of W1, the bias row), what it leaves in the output's buffer (the block's affine
  image, as the body's one stored value), and the pipeline's body obligation from the body's triple.
-/
import proofs.«155370_g68118181314611_cont_sun_m_1213_22_alg».proof.Proof.Gen.KernelIdeal.Launch
import proofs.«155370_g68118181314611_cont_sun_m_1213_22_alg».proof.Proof.Gen.KernelIdeal.Skeleton
import proofs.«155370_g68118181314611_cont_sun_m_1213_22_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangle of the output block. -/
abbrev rO : Rect S1000x512 := Rect.unit (s := S1000x512) ![0, 0] S1000x512.size inb_S1000x512_S1000x512_0_0

theorem hz2 : (![0, 0] : Fin 2 → Nat) = fun _ => 0 := funext fun a => by fin_cases a <;> rfl

/-- What the body leaves in the output's staging buffer: its one stored value, the affine image of the
    block of x under W1 and the bias row. -/
def out3 (x0 : Vec F S1000x512 .f32) (x1 : Vec F S512x512 .f32) (x2 : Vec F S1x512 .f32) : Vec F S1000x512 .bf16 :=
  k0_pay1 x0 x1 x2

set_option maxHeartbeats 1000000 in
/-- The body on whole staging memrefs: inputs at contents `x0 x1 x2`, the output's at anything; it ends with the
    inputs as they were and the output's buffer at `out3`. -/
theorem sound_kernel (c : Dev nD) (E : Set ℕ) (i : grid0.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1000x512 .bf16) (harg4 : arg4.IsWhole)
    (x0 : Vec F S1000x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__xform_kernel i arg1 harg1 arg2 harg2 arg3 harg3 arg4 harg4) K := by
  simp only [cc0__xform_kernel_eq_skeleton]; unfold cc0__xform_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz2 inb_S1000x512_S1000x512_0_0 y⟩), View.canon_unit_zero hz2]
  unfold out3
  simp only [View.readAt_eq_ld, View.ld_unit_zero (S := S1000x512) hz2, View.ld_unit_zero (S := S512x512) hz2, View.ld_unit_zero (S := S1x512) hz2]

/-- The proof data of pipeline 0 on core `c`: the arrays as the region finds them; after the body each input's
    buffer at its block and the output's at the block's affine image; the class invariant; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out3 (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.Reg1.lean ====
/-
  Region 1 of the kernel's @main: the first smoothing layer fused with the second affine map. Each of 25 points
  reads 400 rows of hg, all of t1, the second layer's weights and bias row; it leaves in one output buffer the
  last 1936 columns of its rows of hg, and in the other max (hg_rows · t1) 0 · W2 + b2.
-/
import proofs.«155370_g68118181314611_cont_sun_m_1213_22_alg».proof.Proof.Gen.KernelIdeal.Launch
import proofs.«155370_g68118181314611_cont_sun_m_1213_22_alg».proof.Proof.Gen.KernelIdeal.Skeleton
import proofs.«155370_g68118181314611_cont_sun_m_1213_22_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hz2 : (![0, 0] : Fin 2 → Nat) = fun _ => 0 := funext fun a => by fin_cases a <;> rfl

/-- What the body leaves in the two output buffers, as its two stored values. -/
def out4 (x0 : Vec F S400x10000 .f32) (x1 : Vec F S10000x512 .bf16) (x2 : Vec F S512x512 .bf16) (x3 : Vec F S1x512 .f32) : Vec F S400x512 .bf16 :=
  k1_pay3 x0 x1 x2 x3
def out5 (x0 : Vec F S400x10000 .f32) : Vec F S400x1936 .bf16 :=
  k1_pay2 x0

/-- The proof data of pipeline 1 on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
    | ⟨5, _⟩ => out5 (iblk V c 0 t)
  Φ _ := Pipeline.ΦA spec1 c
  q _ := fullShare
  owed _ := 0

theorem A_eq (c : Dev nD) (w : Fin cfg1.W) : (dat V c).A w = V c (Pipeline.arrRef spec1 w) := by
  dsimp only [dat]
theorem after_4 (c : Dev nD) (t : Fin cfg1.N) :
    (dat V c).after 4 t = out4 (iblk V c 0 t) (iblk V c 1 t) (iblk V c 2 t) (iblk V c 3 t) := by dsimp only [dat]
theorem after_5 (c : Dev nD) (t : Fin cfg1.N) : (dat V c).after 5 t = out5 (iblk V c 0 t) := by dsimp only [dat]

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

set_option maxHeartbeats 4000000 in
/-- The body on whole staging memrefs: inputs at contents `x0 x1 x2 x3`, the two outputs' at anything; it ends with
    the inputs as they were, the first output's buffer at `out4` and the second's at `out5`. -/
theorem sound_kernel (c : Dev nD) (E : Set ℕ) (i : grid1.Coords)
    (arg1 : Memref sig .tc .vmem S400x10000 .f32) (harg1 : arg1.IsWhole) (arg2 : Memref sig .tc .vmem S10000x512 .bf16) (harg2 : arg2.IsWhole)
    (arg3 : Memref sig .tc .vmem S512x512 .bf16) (harg3 : arg3.IsWhole) (arg4 : Memref sig .tc .vmem S1x512 .f32) (harg4 : arg4.IsWhole)
    (arg5 : Memref sig .tc .vmem S400x512 .bf16) (harg5 : arg5.IsWhole) (arg6 : Memref sig .tc .vmem S400x1936 .bf16) (harg6 : arg6.IsWhole)
    (x0 : Vec F S400x10000 .f32) (x1 : Vec F S10000x512 .bf16) (x2 : Vec F S512x512 .bf16) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4 x0 x1 x2 x3) ∗ owns (c : Thread nD τ) arg6 fullShare (out5 x0)) -∗ K ⟨⟩))
      ⊢ wp frame (wpE (defs₀ (F := F)) Variants.none c none) E (cc1__l1_kernel i arg1 harg1 arg2 harg2 arg3 harg3 arg4 harg4 arg5 harg5 arg6 harg6) K := by
  simp only [cc1__l1_kernel_eq_skeleton]; unfold cc1__l1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz2 inb_S400x512_S400x512_0_0 y⟩), View.canon_unit_zero hz2]
    unfold out4
    simp only [View.readAt_eq_ld, View.ld_unit_zero (S := S400x10000) hz2, View.ld_unit_zero (S := S10000x512) hz2, View.ld_unit_zero (S := S512x512) hz2, View.ld_unit_zero (S := S1x512) hz2]
  iexists _; isplitr
  swap; · iexact H5
  ipureintro
  rw [View.read_writes_eq_canon _ _ _ (fun y => ⟨_, List.mem_singleton_self _, View.mem_set_unit_zero hz2 inb_S400x1936_S400x1936_0_0 y⟩), View.canon_unit_zero hz2]
  unfold out5
  simp only [View.readAt_eq_ld, View.ld_unit_zero (S := S400x10000) hz2]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's triple applies; the invariant and
    the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in its exact form, at every point. -/
theorem body_obligation_exact (c : Dev nD) : BodyObligation (dat (F := F) V c) (defs₀ (F := F)) Variants.none () Set.univ := fun t => by
  rw [bigSep_W1, bigSep_W1]
  exact sound_body V c t

/-- The pipeline's body obligation, at every point. -/
theorem body_obligation (c : Dev nD) : BodyObligationLoose (dat (F := F) V c) (defs₀ (F := F)) Variants.none () Set.univ :=
  (body_obligation_exact V c).loose

end Cert.KernelIdeal.Reg1

end
-- ==== Proof.Reg2.lean ====
/-
  Region 2 of the kernel's @main: the second smoothing layer fused with the third affine map. Each of 25 points
  reads 400 rows of hg in two pieces (columns [0, 8064) from hg itself, the rest from the copy region 1 made),
  all of t2, the third layer's weights and bias row, and leaves max (hg_rows · t2) 0 · W3 + b3, the product over
  the 10000 columns taken as the sum of the two pieces' products.
-/
import proofs.«155370_g68118181314611_cont_sun_m_1213_22_alg».proof.Proof.Gen.KernelIdeal.Launch
import proofs.«155370_g68118181314611_cont_sun_m_1213_22_alg».proof.Proof.Gen.KernelIdeal.Skeleton
import proofs.«155370_g68118181314611_cont_sun_m_1213_22_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

/-- The first window's block of hg at point `t` (400 rows, columns [0, 8064)), as a whole staging buffer: the block
    never reaches the array's end, so the transfer moves every element of the buffer and the filler is never read. -/
def iblk0 (c : Dev nD) (t : Fin cfg2.N) : Vec F S400x8064 .f32 :=
  win2_0.fill (grid2.coords t) (fun _ => Scalar.ofBits .f32 0#32) (iblk V c 0 t)

/-- The two row ranges of t2 the body loads: rows [0, 8064) and rows [8064, 10000). -/
abbrev rTop : Rect S10000x512 := Rect.unit (s := S10000x512) ![0, 0] S8064x512.size inb_S10000x512_S8064x512_0_0
abbrev rBot : Rect S10000x512 := Rect.unit (s := S10000x512) ![8064, 0] S1936x512.size inb_S10000x512_S1936x512_8064_0

/-- What the body leaves in the output buffer, as its one stored value. -/
def out5 (x0 : Vec F S400x8064 .f32) (x1 : Vec F S400x1936 .bf16) (x2 : Vec F S10000x512 .bf16) (x3 : Vec F S512x512 .bf16) (x4 : Vec F S1x512 .f32) : Vec F S400x512 .bf16 :=
  k2_pay1 x0 (View.ld x2 rTop) x1 (View.ld x2 rBot) x3 x4

/-- The proof data of pipeline 2 on core `c`. -/
def dat (c : Dev nD) : Dat τ (Elt F) Unit ℕ (UR sig nD τ) ℕ cfg2 c where
  A w := V c (Pipeline.arrRef spec2 w)
  after w t := match w with
    | ⟨0, _⟩ => iblk0 V c t
    | ⟨1, _⟩ => iblk V c 1 t
    | ⟨2, _⟩ => iblk V c 2 t
    | ⟨3, _⟩ => iblk V c 3 t
    | ⟨4, _⟩ => iblk V c 4 t
    | ⟨5, _⟩ => out5 (iblk0 V c t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]
theorem after_5 (c : Dev nD) (t : Fin cfg2.N) :
    (dat V c).after 5 t = out5 (iblk0 V c t) (iblk V c 1 t) (iblk V c 2 t) (iblk V c 3 t) (iblk V c 4 t) := by dsimp only [dat]

theorem after_0 (c : Dev nD) (t : Fin cfg2.N) : (dat V c).after 0 t = iblk0 V c t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]

/-- No point cuts the first window: its block ends inside the array on both axes. -/
theorem hclip : ∀ t : Fin cfg2.N, ∀ a, (cfg2.win 0).clip (cfg2.grid.coords t) a = none :=
  (by decide +kernel : ∀ t : Fin grid2.N, ∀ a : Fin 2, win2_0.clip (grid2.coords t) a = none)

/-- The first window's buffer, fetched at every point, holds its block: an uncut fill takes nothing from what the
    buffer held. -/
theorem before_0 (c : Dev nD) (t : Fin cfg2.N) (d) : (dat V c).before 0 t d = iblk0 V c t := by
  unfold Dat.before; rw [if_pos (fetch2_0 t)]
  unfold Dat.fetched Dat.blockOf iblk0 iblk
  rw [A_eq]
  exact Pipeline.fill_of_clip_none (cfg := cfg2) 0 _ (hclip t) _ _ _

/-- An uncut input window's current staging buffer holds its block at every point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

set_option maxHeartbeats 4000000 in
/-- The body on whole staging memrefs: inputs at contents `x0 … x4`, the output's at anything; it ends with the
    inputs as they were and the output's buffer at `out5`. -/
theorem sound_kernel (c : Dev nD) (E : Set ℕ) (i : grid2.Coords)
    (arg1 : Memref sig .tc .vmem S400x8064 .f32) (harg1 : arg1.IsWhole) (arg2 : Memref sig .tc .vmem S400x1936 .bf16) (harg2 : arg2.IsWhole)
    (arg3 : Memref sig .tc .vmem S10000x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S400x512 .bf16) (harg6 : arg6.IsWhole)
    (x0 : Vec F S400x8064 .f32) (x1 : Vec F S400x1936 .bf16) (x2 : Vec F S10000x512 .bf16) (x3 : Vec F S512x512 .bf16) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc2__mid_kernel i arg1 harg1 arg2 harg2 arg3 harg3 arg4 harg4 arg5 harg5 arg6 harg6) K := by
  simp only [cc2__mid_kernel_eq_skeleton]; unfold cc2__mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero hz2 inb_S400x512_S400x512_0_0 y⟩), View.canon_unit_zero hz2]
  unfold out5
  simp only [View.readAt_eq_ld, View.ld_unit_zero (S := S400x8064) hz2, View.ld_unit_zero (S := S400x1936) hz2,
    View.ld_unit_zero (S := S512x512) hz2, View.ld_unit_zero (S := S1x512) hz2]

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns: the first window's buffer stated on the part its transfers move (all of it), the others
    whole. -/
def bodyPost (c : Dev nD) (t : Fin cfg2.N) : sProp 𝕄 :=
  iprop((dat V c).Φ t.succ ∗ (dat V c).owesAt () t.succ
    ∗ (∃ d, owns (c : Thread nD τ) (st2_0 t) fullShare
        ((cfg2.win 0).fill (cfg2.grid.coords t) d ((cfg2.win 0).cut (cfg2.grid.coords t) ((dat V c).after 0 t))))
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks, so the body's triple applies; the invariant and
    the core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk0 V c t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (iblk0 V c t); rw [Window.fill_cut]; iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligationLoose (dat (F := F) V c) (defs₀ (F := F)) Variants.none () Set.univ := fun t => by
  rw [bigSep_W2, bigSep_W2]
  exact sound_body V c t

end Cert.KernelIdeal.Reg2

end
-- ==== Proof.Reg3.lean ====
/-
  Region 3 of the kernel's @main: the third smoothing layer. Each of 25 points reads 400 rows of hg in two pieces
  (columns [0, 8064) from hg itself, the rest from the copy region 1 made) and all of t3, and leaves
  max (hg_rows · t3) 0, the product over the 10000 columns taken as the sum of the two pieces' products.
-/
import proofs.«155370_g68118181314611_cont_sun_m_1213_22_alg».proof.Proof.Gen.KernelIdeal.Launch
import proofs.«155370_g68118181314611_cont_sun_m_1213_22_alg».proof.Proof.Gen.KernelIdeal.Skeleton
import proofs.«155370_g68118181314611_cont_sun_m_1213_22_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hz2 : (![0, 0] : Fin 2 → Nat) = fun _ => 0 := funext fun a => by fin_cases a <;> rfl

/-- The first window's block of hg at point `t` (400 rows, columns [0, 8064)), as a whole staging buffer: the block
    never reaches the array's end, so the transfer moves every element of the buffer and the filler is never read. -/
def iblk0 (c : Dev nD) (t : Fin cfg3.N) : Vec F S400x8064 .f32 :=
  win3_0.fill (grid3.coords t) (fun _ => Scalar.ofBits .f32 0#32) (iblk V c 0 t)

/-- The two row ranges of t3 the body loads: rows [0, 8064) and rows [8064, 10000). -/
abbrev rTop : Rect S10000x512 := Rect.unit (s := S10000x512) ![0, 0] S8064x512.size inb_S10000x512_S8064x512_0_0
abbrev rBot : Rect S10000x512 := Rect.unit (s := S10000x512) ![8064, 0] S1936x512.size inb_S10000x512_S1936x512_8064_0

/-- What the body leaves in the output buffer, as its one stored value. -/
def out3 (x0 : Vec F S400x8064 .f32) (x1 : Vec F S400x1936 .bf16) (x2 : Vec F S10000x512 .bf16) : Vec F S400x512 .f32 :=
  k3_pay1 x0 (View.ld x2 rTop) x1 (View.ld x2 rBot)

/-- The proof data of pipeline 3 on core `c`. -/
def dat (c : Dev nD) : Dat τ (Elt F) Unit ℕ (UR sig nD τ) ℕ cfg3 c where
  A w := V c (Pipeline.arrRef spec3 w)
  after w t := match w with
    | ⟨0, _⟩ => iblk0 V c t
    | ⟨1, _⟩ => iblk V c 1 t
    | ⟨2, _⟩ => iblk V c 2 t
    | ⟨3, _⟩ => out3 (iblk0 V c t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := by
  dsimp only [dat]
theorem after_3 (c : Dev nD) (t : Fin cfg3.N) :
    (dat V c).after 3 t = out3 (iblk0 V c t) (iblk V c 1 t) (iblk V c 2 t) := by dsimp only [dat]

theorem after_0 (c : Dev nD) (t : Fin cfg3.N) : (dat V c).after 0 t = iblk0 V c t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]

/-- No point cuts the first window: its block ends inside the array on both axes. -/
theorem hclip : ∀ t : Fin cfg3.N, ∀ a, (cfg3.win 0).clip (cfg3.grid.coords t) a = none :=
  (by decide +kernel : ∀ t : Fin grid3.N, ∀ a : Fin 2, win3_0.clip (grid3.coords t) a = none)

/-- The first window's buffer, fetched at every point, holds its block: an uncut fill takes nothing from what the
    buffer held. -/
theorem before_0 (c : Dev nD) (t : Fin cfg3.N) (d) : (dat V c).before 0 t d = iblk0 V c t := by
  unfold Dat.before; rw [if_pos (fetch3_0 t)]
  unfold Dat.fetched Dat.blockOf iblk0 iblk
  rw [A_eq]
  exact Pipeline.fill_of_clip_none (cfg := cfg3) 0 _ (hclip t) _ _ _

/-- An uncut input window's current staging buffer holds its block at every point, fetched there or not. -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

set_option maxHeartbeats 4000000 in
/-- The body on whole staging memrefs: inputs at contents `x0 x1 x2`, the output's at anything; it ends with the
    inputs as they were and the output's buffer at `out3`. -/
theorem sound_kernel (c : Dev nD) (E : Set ℕ) (i : grid3.Coords)
    (arg1 : Memref sig .tc .vmem S400x8064 .f32) (harg1 : arg1.IsWhole) (arg2 : Memref sig .tc .vmem S400x1936 .bf16) (harg2 : arg2.IsWhole)
    (arg3 : Memref sig .tc .vmem S10000x512 .bf16) (harg3 : arg3.IsWhole) (arg4 : Memref sig .tc .vmem S400x512 .f32) (harg4 : arg4.IsWhole)
    (x0 : Vec F S400x8064 .f32) (x1 : Vec F S400x1936 .bf16) (x2 : Vec F S10000x512 .bf16)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc3__last_kernel i arg1 harg1 arg2 harg2 arg3 harg3 arg4 harg4) K := by
  simp only [cc3__last_kernel_eq_skeleton]; unfold cc3__last_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz2 inb_S400x512_S400x512_0_0 y⟩), View.canon_unit_zero hz2]
  unfold out3
  simp only [View.readAt_eq_ld, View.ld_unit_zero (S := S400x8064) hz2, View.ld_unit_zero (S := S400x1936) hz2]

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns: the first window's buffer stated on the part its transfers move (all of it), the others
    whole. -/
def bodyPost (c : Dev nD) (t : Fin cfg3.N) : sProp 𝕄 :=
  iprop((dat V c).Φ t.succ ∗ (dat V c).owesAt () t.succ
    ∗ (∃ d, owns (c : Thread nD τ) (st3_0 t) fullShare
        ((cfg3.win 0).fill (cfg3.grid.coords t) d ((cfg3.win 0).cut (cfg3.grid.coords t) ((dat V c).after 0 t))))
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

/-- The body at any point: the inputs' memrefs hold their blocks, so the body's triple applies; the invariant and
    the core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk0 V c t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (iblk0 V c t); rw [Window.fill_cut]; iexact H0
  isplitl [H1]; · iexact H1
  isplitl [H2]; · iexact H2
  iexact H3

/-- The pipeline's body obligation, at every point. -/
theorem body_obligation (c : Dev nD) : BodyObligationLoose (dat (F := F) V c) (defs₀ (F := F)) Variants.none () Set.univ := fun t => by
  rw [bigSep_W3, bigSep_W3]
  exact sound_body V c t

end Cert.KernelIdeal.Reg3

end
-- ==== Proof.Bounds.lean ====
/-
  The contents of the TensorCore's buffers at each boundary of the kernel's @main, as a fold from the launch
  memory: a stretch of host operations applies its operations; a region leaves each of its windows' arrays at
  what its write-backs leave and every other buffer as it found it.
-/
import proofs.«155370_g68118181314611_cont_sun_m_1213_22_alg».proof.Proof.Reg0
import proofs.«155370_g68118181314611_cont_sun_m_1213_22_alg».proof.Proof.Reg1
import proofs.«155370_g68118181314611_cont_sun_m_1213_22_alg».proof.Proof.Reg2
import proofs.«155370_g68118181314611_cont_sun_m_1213_22_alg».proof.Proof.Reg3
import proofs.«155370_g68118181314611_cont_sun_m_1213_22_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Bounds

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (Reg0.dat (V1 m) c).arrAt w cfg0.N
theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (Reg1.dat (V3 m) c).arrAt w cfg1.N
theorem W4_arr (c : Dev nD) (w : Fin cfg1.W) :
    W4 m c (Proc.devRef .tc (Pipeline.arrRef spec1 w)) = (Reg1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Reg1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit (region 3's entry: no host operation between them). -/
def W6 (c : Dev nD) : Valuation τ sig (Elt F) :=
  Pipeline.withArrays spec2 c (W5 m c) fun w => (Reg2.dat (V5 m) c).arrAt w cfg2.N
theorem W6_arr (c : Dev nD) (w : Fin cfg2.W) :
    W6 m c (Proc.devRef .tc (Pipeline.arrRef spec2 w)) = (Reg2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Reg2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- At region 3's exit: the end of @main. -/
def W7 (c : Dev nD) : Valuation τ sig (Elt F) :=
  Pipeline.withArrays spec3 c (W6 m c) fun w => (Reg3.dat (V6 m) c).arrAt w cfg3.N
theorem W7_arr (c : Dev nD) (w : Fin cfg3.W) :
    W7 m c (Proc.devRef .tc (Pipeline.arrRef spec3 w)) = (Reg3.dat (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (Reg3.dat (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

end Cert.KernelIdeal.Bounds

end
-- ==== Proof.Run.lean ====
/-
  The launch of the kernel's @main: three stretches of host operations and four kernel regions, in order, each
  region entered from the buffer contents the segment before it left. Every weakly fair execution terminates, and
  in every final state each unscoped buffer of the TensorCore holds the contents the fold of the boundaries gives
  it at the end — the result array among them, and the arguments.
-/
import proofs.«155370_g68118181314611_cont_sun_m_1213_22_alg».proof.Proof.Bounds
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen Cert.KernelIdeal.Bounds
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
  | ⟨2, _⟩ => fun c => Reg2.dat (V5 m) c
  | ⟨3, _⟩ => fun c => Reg3.dat (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

-- a library lemma stated over the pinned configuration unifies with the printed one only when unification may unfold
-- plain definitions in a metavariable's type
set_option backward.isDefEq.respectTransparency.types false in
/-- Region 0 over the thread state: entered from every unscoped buffer at the boundary's contents, left at the next
    boundary's. Its arrays are split out of the unscoped buffers and put back at their exit contents; the generator
    register goes into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the boundary's contents, left at the next
    boundary's. Its arrays are split out of the unscoped buffers and put back at their exit contents; the generator
    register goes into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Reg1.body_obligation (V3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at the boundary's contents, left at the next
    boundary's. Its arrays are split out of the unscoped buffers and put back at their exit contents; the generator
    register goes into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := Reg2.body_obligation (V5 m) c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at the boundary's contents, left at the next
    boundary's. Its arrays are split out of the unscoped buffers and put back at their exit contents; the generator
    register goes into the pipeline's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := Reg3.body_obligation (V6 m) c
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- From any memory with zero counters, every weakly fair execution of @main on the TensorCores terminates, nothing
    faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Run

end
-- ==== Proof.Entry.lean ====
/-
  The boundaries' contents read at the references the regions and the claims use: every argument array reaches the
  end of @main holding its launch contents (no host operation writes one and a region only reads it), and each
  region is entered with its windows' arrays at the arguments, at a host operation's image of an argument, or at
  what an earlier region's write-backs left.
-/
import proofs.«155370_g68118181314611_cont_sun_m_1213_22_alg».proof.Proof.Bounds

set_option maxRecDepth 16384

noncomputable section

namespace Cert.KernelIdeal.Entry

open Cert.KernelIdeal Cert.KernelIdeal.Gen Cert.KernelIdeal.Bounds
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## One step back through a boundary -/

/-- A host stretch leaves a buffer it does not write as it found it. -/
theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h

/-- A region leaves an input window's array as it found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Reg0.dat (V1 m) c).arrAt_in w hw _).trans (Reg0.A_eq (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((Reg1.dat (V3 m) c).arrAt_in w hw _).trans (Reg1.A_eq (V3 m) c w))
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((Reg2.dat (V5 m) c).arrAt_in w hw _).trans (Reg2.A_eq (V5 m) c w))
theorem W7_in (c : Dev nD) (w : Fin cfg3.W) (hw : (cfg3.win w).isOut = false) :
    W7 m c (Proc.devRef .tc (Pipeline.arrRef spec3 w)) = W6 m c (Proc.devRef .tc (Pipeline.arrRef spec3 w)) :=
  (W7_arr m c w).trans (((Reg3.dat (V6 m) c).arrAt_in w hw _).trans (Reg3.A_eq (V6 m) c w))

/-! ## The arguments at the end -/

theorem W7_main_arg0 (c : Dev nD) : W7 m c (Proc.devRef .tc main_arg0) = m ((c : Thread nD τ).loc main_arg0) :=
  (W7_of_ne m c main_arg0 (by decide)).trans <| (W6_of_ne m c main_arg0 (by decide)).trans <| (W5_keep m c main_arg0 (by decide)).trans <| (W4_of_ne m c main_arg0 (by decide)).trans <| (W3_keep m c main_arg0 (by decide)).trans <| (W2_in m c 0 rfl).trans <| (W1_keep m c main_arg0 (by decide)).trans rfl
theorem W7_main_arg1 (c : Dev nD) : W7 m c (Proc.devRef .tc main_arg1) = m ((c : Thread nD τ).loc main_arg1) :=
  (W7_in m c 0 rfl).trans <| (W6_in m c 0 rfl).trans <| (W5_keep m c main_arg1 (by decide)).trans <| (W4_in m c 0 rfl).trans <| (W3_keep m c main_arg1 (by decide)).trans <| (W2_of_ne m c main_arg1 (by decide)).trans <| (W1_keep m c main_arg1 (by decide)).trans rfl
theorem W7_main_arg2 (c : Dev nD) : W7 m c (Proc.devRef .tc main_arg2) = m ((c : Thread nD τ).loc main_arg2) :=
  (W7_of_ne m c main_arg2 (by decide)).trans <| (W6_of_ne m c main_arg2 (by decide)).trans <| (W5_keep m c main_arg2 (by decide)).trans <| (W4_of_ne m c main_arg2 (by decide)).trans <| (W3_keep m c main_arg2 (by decide)).trans <| (W2_in m c 1 rfl).trans <| (W1_keep m c main_arg2 (by decide)).trans rfl
theorem W7_main_arg3 (c : Dev nD) : W7 m c (Proc.devRef .tc main_arg3) = m ((c : Thread nD τ).loc main_arg3) :=
  (W7_of_ne m c main_arg3 (by decide)).trans <| (W6_of_ne m c main_arg3 (by decide)).trans <| (W5_keep m c main_arg3 (by decide)).trans <| (W4_of_ne m c main_arg3 (by decide)).trans <| (W3_keep m c main_arg3 (by decide)).trans <| (W2_of_ne m c main_arg3 (by decide)).trans <| (W1_keep m c main_arg3 (by decide)).trans rfl
theorem W7_main_arg4 (c : Dev nD) : W7 m c (Proc.devRef .tc main_arg4) = m ((c : Thread nD τ).loc main_arg4) :=
  (W7_of_ne m c main_arg4 (by decide)).trans <| (W6_of_ne m c main_arg4 (by decide)).trans <| (W5_keep m c main_arg4 (by decide)).trans <| (W4_of_ne m c main_arg4 (by decide)).trans <| (W3_keep m c main_arg4 (by decide)).trans <| (W2_of_ne m c main_arg4 (by decide)).trans <| (W1_keep m c main_arg4 (by decide)).trans rfl
theorem W7_main_arg5 (c : Dev nD) : W7 m c (Proc.devRef .tc main_arg5) = m ((c : Thread nD τ).loc main_arg5) :=
  (W7_of_ne m c main_arg5 (by decide)).trans <| (W6_of_ne m c main_arg5 (by decide)).trans <| (W5_keep m c main_arg5 (by decide)).trans <| (W4_of_ne m c main_arg5 (by decide)).trans <| (W3_keep m c main_arg5 (by decide)).trans <| (W2_of_ne m c main_arg5 (by decide)).trans <| (W1_keep m c main_arg5 (by decide)).trans rfl
theorem W7_main_arg6 (c : Dev nD) : W7 m c (Proc.devRef .tc main_arg6) = m ((c : Thread nD τ).loc main_arg6) :=
  (W7_of_ne m c main_arg6 (by decide)).trans <| (W6_of_ne m c main_arg6 (by decide)).trans <| (W5_keep m c main_arg6 (by decide)).trans <| (W4_of_ne m c main_arg6 (by decide)).trans <| (W3_keep m c main_arg6 (by decide)).trans <| (W2_of_ne m c main_arg6 (by decide)).trans <| (W1_keep m c main_arg6 (by decide)).trans rfl
theorem W7_main_arg7 (c : Dev nD) : W7 m c (Proc.devRef .tc main_arg7) = m ((c : Thread nD τ).loc main_arg7) :=
  (W7_of_ne m c main_arg7 (by decide)).trans <| (W6_of_ne m c main_arg7 (by decide)).trans <| (W5_keep m c main_arg7 (by decide)).trans <| (W4_of_ne m c main_arg7 (by decide)).trans <| (W3_keep m c main_arg7 (by decide)).trans <| (W2_of_ne m c main_arg7 (by decide)).trans <| (W1_keep m c main_arg7 (by decide)).trans rfl

/-! ## What the regions are entered with -/

/-- Region 0 reads x and W1 as launched, and the first bias as a one-row matrix. -/
theorem V1_arg0 (c : Dev nD) : Bounds.V1 m c main_arg0 = m ((c : Thread nD τ).loc main_arg0) := W1_keep m c main_arg0 (by decide)
theorem V1_arg2 (c : Dev nD) : Bounds.V1 m c main_arg2 = m ((c : Thread nD τ).loc main_arg2) := W1_keep m c main_arg2 (by decide)
theorem V1_v0 (c : Dev nD) : Bounds.V1 m c main_v0 = shapeCast S1x512 (m ((c : Thread nD τ).loc main_arg3)) shapeCasts_S512_S1x512 := by
  show StableHlo.after hostOps0 (fun b => m (c, b)) (Proc.devRef .tc main_v0) = _
  after_results
  rfl

/-- No region and no host stretch before region 1 changes an argument: each later boundary reads it as launched. -/
theorem W2_arg (c : Dev nD) (r : Ref sig .tc) (h0 : ∀ w, Pipeline.arrRef spec0 w ≠ r) (h1 : r ∉ hostOps0_W) :
    W2 m c (Proc.devRef .tc r) = m ((c : Thread nD τ).loc r) :=
  (W2_of_ne m c r h0).trans (W1_keep m c r h1)

/-- Region 1 reads hg as launched, region 0's output, the second layer's weights in the narrower format (the same
    numbers over the extended reals) and its bias as a one-row matrix. -/
theorem V3_arg1 (c : Dev nD) : Bounds.V3 m c main_arg1 = m ((c : Thread nD τ).loc main_arg1) :=
  (W3_keep m c main_arg1 (by decide)).trans (W2_arg m c main_arg1 (by decide) (by decide))
theorem V3_v1 (c : Dev nD) : Bounds.V3 m c main_v1 = (Reg0.dat (Bounds.V1 m) c).arrAt 3 cfg0.N :=
  (W3_keep m c main_v1 (by decide)).trans (W2_arr m c 3)
theorem V3_v2 (c : Dev nD) : Bounds.V3 m c main_v2 = truncf .bf16 (m ((c : Thread nD τ).loc main_arg4)) bitsLt_bf16_f32 := by
  have e : W2 m c (Proc.devRef .tc main_arg4) = m ((c : Thread nD τ).loc main_arg4) := W2_arg m c main_arg4 (by decide) (by decide)
  show StableHlo.after hostOps1 (W2 m c) (Proc.devRef .tc main_v2) = _
  after_results
  rw [e]
theorem V3_v3 (c : Dev nD) : Bounds.V3 m c main_v3 = shapeCast S1x512 (m ((c : Thread nD τ).loc main_arg5)) shapeCasts_S512_S1x512 := by
  have e : W2 m c (Proc.devRef .tc main_arg5) = m ((c : Thread nD τ).loc main_arg5) := W2_arg m c main_arg5 (by decide) (by decide)
  show StableHlo.after hostOps1 (W2 m c) (Proc.devRef .tc main_v3) = _
  after_results
  rw [e]
  rfl

/-- An argument that is no window's array of regions 0 and 1 and that the first two host stretches do not write
    is, at region 1's exit, as launched. -/
theorem W4_arg (c : Dev nD) (r : Ref sig .tc) (h0 : ∀ w, Pipeline.arrRef spec0 w ≠ r) (h1 : r ∉ hostOps0_W)
    (h2 : r ∉ hostOps1_W) (h3 : ∀ w, Pipeline.arrRef spec1 w ≠ r) :
    W4 m c (Proc.devRef .tc r) = m ((c : Thread nD τ).loc r) :=
  (W4_of_ne m c r h3).trans <| (W3_keep m c r h2).trans (W2_arg m c r h0 h1)

/-- Region 2 reads hg as launched, region 1's two outputs, the third layer's weights in the narrower format and
    its bias as a one-row matrix. -/
theorem V5_arg1 (c : Dev nD) : Bounds.V5 m c main_arg1 = m ((c : Thread nD τ).loc main_arg1) :=
  (W5_keep m c main_arg1 (by decide)).trans <| (W4_in m c 0 rfl).trans (V3_arg1 m c)
theorem V5_v4_0 (c : Dev nD) : Bounds.V5 m c main_v4_0 = (Reg1.dat (Bounds.V3 m) c).arrAt 4 cfg1.N :=
  (W5_keep m c main_v4_0 (by decide)).trans (W4_arr m c 4)
theorem V5_v4_1 (c : Dev nD) : Bounds.V5 m c main_v4_1 = (Reg1.dat (Bounds.V3 m) c).arrAt 5 cfg1.N :=
  (W5_keep m c main_v4_1 (by decide)).trans (W4_arr m c 5)
theorem V5_v5 (c : Dev nD) : Bounds.V5 m c main_v5 = truncf .bf16 (m ((c : Thread nD τ).loc main_arg6)) bitsLt_bf16_f32 := by
  have e : W4 m c (Proc.devRef .tc main_arg6) = m ((c : Thread nD τ).loc main_arg6) :=
    W4_arg m c main_arg6 (by decide) (by decide) (by decide) (by decide)
  show StableHlo.after hostOps2 (W4 m c) (Proc.devRef .tc main_v5) = _
  after_results
  rw [e]
theorem V5_v6 (c : Dev nD) : Bounds.V5 m c main_v6 = shapeCast S1x512 (m ((c : Thread nD τ).loc main_arg7)) shapeCasts_S512_S1x512 := by
  have e : W4 m c (Proc.devRef .tc main_arg7) = m ((c : Thread nD τ).loc main_arg7) :=
    W4_arg m c main_arg7 (by decide) (by decide) (by decide) (by decide)
  show StableHlo.after hostOps2 (W4 m c) (Proc.devRef .tc main_v6) = _
  after_results
  rw [e]
  rfl

/-- Region 3 reads hg as launched, region 1's copy of its last columns, and region 2's output. -/
theorem V6_arg1 (c : Dev nD) : Bounds.V6 m c main_arg1 = m ((c : Thread nD τ).loc main_arg1) :=
  (W6_in m c 0 rfl).trans (V5_arg1 m c)
theorem V6_v4_1 (c : Dev nD) : Bounds.V6 m c main_v4_1 = (Reg1.dat (Bounds.V3 m) c).arrAt 5 cfg1.N :=
  (W6_in m c 1 rfl).trans (V5_v4_1 m c)
theorem V6_v7 (c : Dev nD) : Bounds.V6 m c main_v7 = (Reg2.dat (Bounds.V5 m) c).arrAt 5 cfg2.N :=
  W6_arr m c 5

/-- The result array at the end: what region 3's write-backs leave. -/
theorem W7_v8 (c : Dev nD) : W7 m c (Proc.devRef .tc main_v8) = (Reg3.dat (Bounds.V6 m) c).arrAt 3 cfg3.N :=
  W7_arr m c 3

end Cert.KernelIdeal.Entry

end
-- ==== Proof.Spec.lean ====
/-
  The mathematics both programs compute, as functions of whole arrays over the extended reals.
  A layer is an affine map of the rows (`lin`: x · W + b, the bias a row added to every row) followed by
  the smoothing operator and the rectifier (`prop`: max (hg · t) 0). The kernel's later layers read the
  smoothing matrix in two column ranges, [0, 8064) from the matrix itself and [8064, 10000) from a copy of
  those columns (`tailCols`), and add the two partial products (`propSplit`); a sum over 10000 terms is the
  sum of its first 8064 and its last 1936, so the split form is the whole one (`propSplit_tail`).
-/
import Idealize.ShloMosaic.Lib.ValueIdx

noncomputable section

open scoped BigOperators

namespace Cert.Spec

open Idealize.ShloMosaic Idealize.ShloMosaic.ValueIdx

/-- A matrix of extended reals. -/
abbrev Arr (a b : Nat) : Type := (⟨2, ![a, b]⟩ : Shape).Idx → EReal
/-- A vector of extended reals. -/
abbrev Vec1 (a : Nat) : Type := (⟨1, ![a]⟩ : Shape).Idx → EReal

/-- A bias vector as a one-row matrix. -/
def row (b : Vec1 512) : Arr 1 512 := fun i => b (ix1 (i 1))

/-- The affine map of a layer: every row of `x` through `W`, plus the bias row. -/
def lin (x : Arr 10000 512) (W : Arr 512 512) (b : Arr 1 512) : Arr 10000 512 :=
  fun i => (∑ k : Fin 512, x (ix2 (i 0) k) * W (ix2 k (i 1))) + b (ix2 0 (i 1))

/-- Smoothing by `hg` and the rectifier. -/
def prop (hg : Arr 10000 10000) (t : Arr 10000 512) : Arr 10000 512 :=
  fun i => max (∑ k : Fin 10000, hg (ix2 (i 0) k) * t (ix2 k (i 1))) 0

/-- The last 1936 columns of the smoothing matrix. -/
def tailCols (hg : Arr 10000 10000) : Arr 10000 1936 :=
  fun i => hg (ix2 (i 0) ⟨8064 + (i 1).val, by have := idx2_lt1 i; omega⟩)

/-- Smoothing with the contraction cut at column 8064: the first 8064 columns from `hg`, the last 1936 from `hc`. -/
def propSplit (hg : Arr 10000 10000) (hc : Arr 10000 1936) (t : Arr 10000 512) : Arr 10000 512 :=
  fun i => max ((∑ k : Fin 8064, hg (ix2 (i 0) ⟨k.val, by have := k.isLt; omega⟩) * t (ix2 ⟨k.val, by have := k.isLt; omega⟩ (i 1)))
      + ∑ k : Fin 1936, hc (ix2 (i 0) k) * t (ix2 ⟨8064 + k.val, by have := k.isLt; omega⟩ (i 1))) 0

/-- A sum over 10000 terms is the sum of its first 8064 and its last 1936. -/
theorem sum_split (f : Fin 10000 → EReal) :
    ∑ k : Fin 10000, f k
      = (∑ k : Fin 8064, f ⟨k.val, by have := k.isLt; omega⟩) + ∑ k : Fin 1936, f ⟨8064 + k.val, by have := k.isLt; omega⟩ := by
  have h := Fin.sum_univ_add (M := EReal) (a := 8064) (b := 1936) (fun k : Fin (8064 + 1936) => f ⟨k.val, k.isLt⟩)
  exact h

/-- With the copied columns the split smoothing is the whole one. -/
theorem propSplit_tail (hg : Arr 10000 10000) (t : Arr 10000 512) : propSplit hg (tailCols hg) t = prop hg t := by
  funext i
  unfold propSplit prop tailCols
  rw [sum_split (fun k => hg (ix2 (i 0) k) * t (ix2 k (i 1)))]

/-- Three layers. -/
def layers (x : Arr 10000 512) (hg : Arr 10000 10000) (W1 : Arr 512 512) (b1 : Vec1 512) (W2 : Arr 512 512) (b2 : Vec1 512)
    (W3 : Arr 512 512) (b3 : Vec1 512) : Arr 10000 512 :=
  prop hg (lin (prop hg (lin (prop hg (lin x W1 (row b1))) W2 (row b2))) W3 (row b3))

end Cert.Spec

end
-- ==== Proof.MatmulAt.lean ====
/-
  The kernel's five matrix products read at an index, over the extended reals: a product into a zero accumulator
  is, at row p and column q, the sum over the contracted axis of the left operand's row times the right operand's
  column.
-/
import proofs.«155370_g68118181314611_cont_sun_m_1213_22_alg».proof.Proof.Gen.KernelIdeal
import Idealize.ShloMosaic.Lib.ValueIdx
import Idealize.ShloMosaic.PureOps.Ideal.Laws

noncomputable section

open scoped BigOperators

namespace Cert.KernelIdeal.MatmulAt

open Cert.KernelIdeal
open Idealize.ShloMosaic Idealize.ShloMosaic.ValueIdx

/-! ### The 1000×512 by 512×512 product

  The left operand's index at output index j and contraction index c: axis 0 is free and carries j's row; axis 1 is
  the contracted one and carries c. The right operand's: axis 0 is contracted and carries c; axis 1 is free and
  carries j's column. -/

theorem x_lhs0 (j : S1000x512.Idx) (c : dot_S1000x512_S512x512_S1000x512_1_0_0_1_n_n.contr.Idx) :
    (dot_S1000x512_S512x512_S1000x512_1_0_0_1_n_n.lhsIdx j c 0).val = (j 0).val := by
  unfold DotDims.lhsIdx
  rw [dif_neg (show ¬(0 : Fin S1000x512.rank) ∈ dot_S1000x512_S512x512_S1000x512_1_0_0_1_n_n.lhsBatch by decide),
    dif_pos (show (0 : Fin S1000x512.rank) ∈ dot_S1000x512_S512x512_S1000x512_1_0_0_1_n_n.lhsNonContracting by decide)]
  rfl
theorem x_lhs1 (j : S1000x512.Idx) (c : dot_S1000x512_S512x512_S1000x512_1_0_0_1_n_n.contr.Idx) :
    (dot_S1000x512_S512x512_S1000x512_1_0_0_1_n_n.lhsIdx j c 1).val = (c ⟨0, by decide⟩).val :=
  dot_S1000x512_S512x512_S1000x512_1_0_0_1_n_n.lhsIdx_val_of_single rfl j c
theorem x_rhs0 (j : S1000x512.Idx) (c : dot_S1000x512_S512x512_S1000x512_1_0_0_1_n_n.contr.Idx) :
    (dot_S1000x512_S512x512_S1000x512_1_0_0_1_n_n.rhsIdx j c 0).val = (c ⟨0, by decide⟩).val :=
  dot_S1000x512_S512x512_S1000x512_1_0_0_1_n_n.rhsIdx_val_of_single rfl j c
theorem x_rhs1 (j : S1000x512.Idx) (c : dot_S1000x512_S512x512_S1000x512_1_0_0_1_n_n.contr.Idx) :
    (dot_S1000x512_S512x512_S1000x512_1_0_0_1_n_n.rhsIdx j c 1).val = (j 1).val := by
  unfold DotDims.rhsIdx
  rw [dif_neg (show ¬(1 : Fin S512x512.rank) ∈ dot_S1000x512_S512x512_S1000x512_1_0_0_1_n_n.rhsBatch by decide),
    dif_pos (show (1 : Fin S512x512.rank) ∈ dot_S1000x512_S512x512_S1000x512_1_0_0_1_n_n.rhsNonContracting by decide)]
  rfl

/-- The 1000×512 by 512×512 product into a zero accumulator, at an index: the sum over the contracted axis. -/
theorem mm_x {φ₁ φ₂ : FTy} (a : FVec Ideal S1000x512 φ₁) (b : FVec Ideal S512x512 φ₂) (p : Fin 1000) (q : Fin 512) :
    matmul (F := Ideal) dot_S1000x512_S512x512_S1000x512_1_0_0_1_n_n none a b (constant S1000x512 .f32 0x00000000#32) (ix2 p q)
      = ∑ k : Fin 512, a (ix2 p k) * b (ix2 k q) := by
  show FloatOps.matmul dot_S1000x512_S512x512_S1000x512_1_0_0_1_n_n none a b (constant S1000x512 .f32 0x00000000#32) (ix2 p q) = _
  rw [Ideal.matmul_constant_zero_apply,
    ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have hl : dot_S1000x512_S512x512_S1000x512_1_0_0_1_n_n.lhsIdx (ix2 p q)
      ((contrEquiv1 dot_S1000x512_S512x512_S1000x512_1_0_0_1_n_n 512 rfl rfl).symm k) = ix2 p k :=
    funext fun d => Fin.ext (by
      match d with
      | ⟨0, _⟩ => exact x_lhs0 _ _
      | ⟨1, _⟩ => exact (x_lhs1 _ _).trans hk)
  have hr : dot_S1000x512_S512x512_S1000x512_1_0_0_1_n_n.rhsIdx (ix2 p q)
      ((contrEquiv1 dot_S1000x512_S512x512_S1000x512_1_0_0_1_n_n 512 rfl rfl).symm k) = ix2 k q :=
    funext fun d => Fin.ext (by
      match d with
      | ⟨0, _⟩ => exact (x_rhs0 _ _).trans hk
      | ⟨1, _⟩ => exact x_rhs1 _ _)
  rw [hl, hr]

/-! ### The 400×10000 by 10000×512 product

  The same four facts for this product's operand indices: the left operand's axis 0 carries the output's row and its
  axis 1 the contraction index; the right operand's axis 0 carries the contraction index and its axis 1 the output's
  column. -/

theorem hg_lhs0 (j : S400x512.Idx) (c : dot_S400x10000_S10000x512_S400x512_1_0_0_1_n_n.contr.Idx) :
    (dot_S400x10000_S10000x512_S400x512_1_0_0_1_n_n.lhsIdx j c 0).val = (j 0).val := by
  unfold DotDims.lhsIdx
  rw [dif_neg (show ¬(0 : Fin S400x10000.rank) ∈ dot_S400x10000_S10000x512_S400x512_1_0_0_1_n_n.lhsBatch by decide),
    dif_pos (show (0 : Fin S400x10000.rank) ∈ dot_S400x10000_S10000x512_S400x512_1_0_0_1_n_n.lhsNonContracting by decide)]
  rfl
theorem hg_lhs1 (j : S400x512.Idx) (c : dot_S400x10000_S10000x512_S400x512_1_0_0_1_n_n.contr.Idx) :
    (dot_S400x10000_S10000x512_S400x512_1_0_0_1_n_n.lhsIdx j c 1).val = (c ⟨0, by decide⟩).val :=
  dot_S400x10000_S10000x512_S400x512_1_0_0_1_n_n.lhsIdx_val_of_single rfl j c
theorem hg_rhs0 (j : S400x512.Idx) (c : dot_S400x10000_S10000x512_S400x512_1_0_0_1_n_n.contr.Idx) :
    (dot_S400x10000_S10000x512_S400x512_1_0_0_1_n_n.rhsIdx j c 0).val = (c ⟨0, by decide⟩).val :=
  dot_S400x10000_S10000x512_S400x512_1_0_0_1_n_n.rhsIdx_val_of_single rfl j c
theorem hg_rhs1 (j : S400x512.Idx) (c : dot_S400x10000_S10000x512_S400x512_1_0_0_1_n_n.contr.Idx) :
    (dot_S400x10000_S10000x512_S400x512_1_0_0_1_n_n.rhsIdx j c 1).val = (j 1).val := by
  unfold DotDims.rhsIdx
  rw [dif_neg (show ¬(1 : Fin S10000x512.rank) ∈ dot_S400x10000_S10000x512_S400x512_1_0_0_1_n_n.rhsBatch by decide),
    dif_pos (show (1 : Fin S10000x512.rank) ∈ dot_S400x10000_S10000x512_S400x512_1_0_0_1_n_n.rhsNonContracting by decide)]
  rfl

/-- The 400×10000 by 10000×512 product into a zero accumulator, at an index: the sum over the contracted axis. -/
theorem mm_hg {φ₁ φ₂ : FTy} (a : FVec Ideal S400x10000 φ₁) (b : FVec Ideal S10000x512 φ₂) (p : Fin 400) (q : Fin 512) :
    matmul (F := Ideal) dot_S400x10000_S10000x512_S400x512_1_0_0_1_n_n none a b (constant S400x512 .f32 0x00000000#32) (ix2 p q)
      = ∑ k : Fin 10000, a (ix2 p k) * b (ix2 k q) := by
  show FloatOps.matmul dot_S400x10000_S10000x512_S400x512_1_0_0_1_n_n none a b (constant S400x512 .f32 0x00000000#32) (ix2 p q) = _
  rw [Ideal.matmul_constant_zero_apply,
    ← Equiv.sum_comp (contrEquiv1 dot_S400x10000_S10000x512_S400x512_1_0_0_1_n_n 10000 rfl rfl).symm]
  refine Finset.sum_congr rfl fun k _ => ?_
  have hk := contrEquiv1_symm_val dot_S400x10000_S10000x512_S400x512_1_0_0_1_n_n 10000 rfl rfl k
  have hl : dot_S400x10000_S10000x512_S400x512_1_0_0_1_n_n.lhsIdx (ix2 p q)
      ((contrEquiv1 dot_S400x10000_S10000x512_S400x512_1_0_0_1_n_n 10000 rfl rfl).symm k) = ix2 p k :=
    funext fun d => Fin.ext (by
      match d with
      | ⟨0, _⟩ => exact hg_lhs0 _ _
      | ⟨1, _⟩ => exact (hg_lhs1 _ _).trans hk)
  have hr : dot_S400x10000_S10000x512_S400x512_1_0_0_1_n_n.rhsIdx (ix2 p q)
      ((contrEquiv1 dot_S400x10000_S10000x512_S400x512_1_0_0_1_n_n 10000 rfl rfl).symm k) = ix2 k q :=
    funext fun d => Fin.ext (by
      match d with
      | ⟨0, _⟩ => exact (hg_rhs0 _ _).trans hk
      | ⟨1, _⟩ => exact hg_rhs1 _ _)
  rw [hl, hr]

/-! ### The 400×512 by 512×512 product

  The same four facts for this product's operand indices: the left operand's axis 0 carries the output's row and its
  axis 1 the contraction index; the right operand's axis 0 carries the contraction index and its axis 1 the output's
  column. -/

theorem w_lhs0 (j : S400x512.Idx) (c : dot_S400x512_S512x512_S400x512_1_0_0_1_n_n.contr.Idx) :
    (dot_S400x512_S512x512_S400x512_1_0_0_1_n_n.lhsIdx j c 0).val = (j 0).val := by
  unfold DotDims.lhsIdx
  rw [dif_neg (show ¬(0 : Fin S400x512.rank) ∈ dot_S400x512_S512x512_S400x512_1_0_0_1_n_n.lhsBatch by decide),
    dif_pos (show (0 : Fin S400x512.rank) ∈ dot_S400x512_S512x512_S400x512_1_0_0_1_n_n.lhsNonContracting by decide)]
  rfl
theorem w_lhs1 (j : S400x512.Idx) (c : dot_S400x512_S512x512_S400x512_1_0_0_1_n_n.contr.Idx) :
    (dot_S400x512_S512x512_S400x512_1_0_0_1_n_n.lhsIdx j c 1).val = (c ⟨0, by decide⟩).val :=
  dot_S400x512_S512x512_S400x512_1_0_0_1_n_n.lhsIdx_val_of_single rfl j c
theorem w_rhs0 (j : S400x512.Idx) (c : dot_S400x512_S512x512_S400x512_1_0_0_1_n_n.contr.Idx) :
    (dot_S400x512_S512x512_S400x512_1_0_0_1_n_n.rhsIdx j c 0).val = (c ⟨0, by decide⟩).val :=
  dot_S400x512_S512x512_S400x512_1_0_0_1_n_n.rhsIdx_val_of_single rfl j c
theorem w_rhs1 (j : S400x512.Idx) (c : dot_S400x512_S512x512_S400x512_1_0_0_1_n_n.contr.Idx) :
    (dot_S400x512_S512x512_S400x512_1_0_0_1_n_n.rhsIdx j c 1).val = (j 1).val := by
  unfold DotDims.rhsIdx
  rw [dif_neg (show ¬(1 : Fin S512x512.rank) ∈ dot_S400x512_S512x512_S400x512_1_0_0_1_n_n.rhsBatch by decide),
    dif_pos (show (1 : Fin S512x512.rank) ∈ dot_S400x512_S512x512_S400x512_1_0_0_1_n_n.rhsNonContracting by decide)]
  rfl

/-- The 400×512 by 512×512 product into a zero accumulator, at an index: the sum over the contracted axis. -/
theorem mm_w {φ₁ φ₂ : FTy} (a : FVec Ideal S400x512 φ₁) (b : FVec Ideal S512x512 φ₂) (p : Fin 400) (q : Fin 512) :
    matmul (F := Ideal) dot_S400x512_S512x512_S400x512_1_0_0_1_n_n none a b (constant S400x512 .f32 0x00000000#32) (ix2 p q)
      = ∑ k : Fin 512, a (ix2 p k) * b (ix2 k q) := by
  show FloatOps.matmul dot_S400x512_S512x512_S400x512_1_0_0_1_n_n none a b (constant S400x512 .f32 0x00000000#32) (ix2 p q) = _
  rw [Ideal.matmul_constant_zero_apply,
    ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have hl : dot_S400x512_S512x512_S400x512_1_0_0_1_n_n.lhsIdx (ix2 p q)
      ((contrEquiv1 dot_S400x512_S512x512_S400x512_1_0_0_1_n_n 512 rfl rfl).symm k) = ix2 p k :=
    funext fun d => Fin.ext (by
      match d with
      | ⟨0, _⟩ => exact w_lhs0 _ _
      | ⟨1, _⟩ => exact (w_lhs1 _ _).trans hk)
  have hr : dot_S400x512_S512x512_S400x512_1_0_0_1_n_n.rhsIdx (ix2 p q)
      ((contrEquiv1 dot_S400x512_S512x512_S400x512_1_0_0_1_n_n 512 rfl rfl).symm k) = ix2 k q :=
    funext fun d => Fin.ext (by
      match d with
      | ⟨0, _⟩ => exact (w_rhs0 _ _).trans hk
      | ⟨1, _⟩ => exact w_rhs1 _ _)
  rw [hl, hr]

/-! ### The 400×8064 by 8064×512 product

  The same four facts for this product's operand indices: the left operand's axis 0 carries the output's row and its
  axis 1 the contraction index; the right operand's axis 0 carries the contraction index and its axis 1 the output's
  column. -/

theorem top_lhs0 (j : S400x512.Idx) (c : dot_S400x8064_S8064x512_S400x512_1_0_0_1_n_n.contr.Idx) :
    (dot_S400x8064_S8064x512_S400x512_1_0_0_1_n_n.lhsIdx j c 0).val = (j 0).val := by
  unfold DotDims.lhsIdx
  rw [dif_neg (show ¬(0 : Fin S400x8064.rank) ∈ dot_S400x8064_S8064x512_S400x512_1_0_0_1_n_n.lhsBatch by decide),
    dif_pos (show (0 : Fin S400x8064.rank) ∈ dot_S400x8064_S8064x512_S400x512_1_0_0_1_n_n.lhsNonContracting by decide)]
  rfl
theorem top_lhs1 (j : S400x512.Idx) (c : dot_S400x8064_S8064x512_S400x512_1_0_0_1_n_n.contr.Idx) :
    (dot_S400x8064_S8064x512_S400x512_1_0_0_1_n_n.lhsIdx j c 1).val = (c ⟨0, by decide⟩).val :=
  dot_S400x8064_S8064x512_S400x512_1_0_0_1_n_n.lhsIdx_val_of_single rfl j c
theorem top_rhs0 (j : S400x512.Idx) (c : dot_S400x8064_S8064x512_S400x512_1_0_0_1_n_n.contr.Idx) :
    (dot_S400x8064_S8064x512_S400x512_1_0_0_1_n_n.rhsIdx j c 0).val = (c ⟨0, by decide⟩).val :=
  dot_S400x8064_S8064x512_S400x512_1_0_0_1_n_n.rhsIdx_val_of_single rfl j c
theorem top_rhs1 (j : S400x512.Idx) (c : dot_S400x8064_S8064x512_S400x512_1_0_0_1_n_n.contr.Idx) :
    (dot_S400x8064_S8064x512_S400x512_1_0_0_1_n_n.rhsIdx j c 1).val = (j 1).val := by
  unfold DotDims.rhsIdx
  rw [dif_neg (show ¬(1 : Fin S8064x512.rank) ∈ dot_S400x8064_S8064x512_S400x512_1_0_0_1_n_n.rhsBatch by decide),
    dif_pos (show (1 : Fin S8064x512.rank) ∈ dot_S400x8064_S8064x512_S400x512_1_0_0_1_n_n.rhsNonContracting by decide)]
  rfl

/-- The 400×8064 by 8064×512 product into a zero accumulator, at an index: the sum over the contracted axis. -/
theorem mm_top {φ₁ φ₂ : FTy} (a : FVec Ideal S400x8064 φ₁) (b : FVec Ideal S8064x512 φ₂) (p : Fin 400) (q : Fin 512) :
    matmul (F := Ideal) dot_S400x8064_S8064x512_S400x512_1_0_0_1_n_n none a b (constant S400x512 .f32 0x00000000#32) (ix2 p q)
      = ∑ k : Fin 8064, a (ix2 p k) * b (ix2 k q) := by
  show FloatOps.matmul dot_S400x8064_S8064x512_S400x512_1_0_0_1_n_n none a b (constant S400x512 .f32 0x00000000#32) (ix2 p q) = _
  rw [Ideal.matmul_constant_zero_apply,
    ← Equiv.sum_comp (contrEquiv1 dot_S400x8064_S8064x512_S400x512_1_0_0_1_n_n 8064 rfl rfl).symm]
  refine Finset.sum_congr rfl fun k _ => ?_
  have hk := contrEquiv1_symm_val dot_S400x8064_S8064x512_S400x512_1_0_0_1_n_n 8064 rfl rfl k
  have hl : dot_S400x8064_S8064x512_S400x512_1_0_0_1_n_n.lhsIdx (ix2 p q)
      ((contrEquiv1 dot_S400x8064_S8064x512_S400x512_1_0_0_1_n_n 8064 rfl rfl).symm k) = ix2 p k :=
    funext fun d => Fin.ext (by
      match d with
      | ⟨0, _⟩ => exact top_lhs0 _ _
      | ⟨1, _⟩ => exact (top_lhs1 _ _).trans hk)
  have hr : dot_S400x8064_S8064x512_S400x512_1_0_0_1_n_n.rhsIdx (ix2 p q)
      ((contrEquiv1 dot_S400x8064_S8064x512_S400x512_1_0_0_1_n_n 8064 rfl rfl).symm k) = ix2 k q :=
    funext fun d => Fin.ext (by
      match d with
      | ⟨0, _⟩ => exact (top_rhs0 _ _).trans hk
      | ⟨1, _⟩ => exact top_rhs1 _ _)
  rw [hl, hr]

/-! ### The 400×1936 by 1936×512 product

  The same four facts for this product's operand indices: the left operand's axis 0 carries the output's row and its
  axis 1 the contraction index; the right operand's axis 0 carries the contraction index and its axis 1 the output's
  column. -/

theorem bot_lhs0 (j : S400x512.Idx) (c : dot_S400x1936_S1936x512_S400x512_1_0_0_1_n_n.contr.Idx) :
    (dot_S400x1936_S1936x512_S400x512_1_0_0_1_n_n.lhsIdx j c 0).val = (j 0).val := by
  unfold DotDims.lhsIdx
  rw [dif_neg (show ¬(0 : Fin S400x1936.rank) ∈ dot_S400x1936_S1936x512_S400x512_1_0_0_1_n_n.lhsBatch by decide),
    dif_pos (show (0 : Fin S400x1936.rank) ∈ dot_S400x1936_S1936x512_S400x512_1_0_0_1_n_n.lhsNonContracting by decide)]
  rfl
theorem bot_lhs1 (j : S400x512.Idx) (c : dot_S400x1936_S1936x512_S400x512_1_0_0_1_n_n.contr.Idx) :
    (dot_S400x1936_S1936x512_S400x512_1_0_0_1_n_n.lhsIdx j c 1).val = (c ⟨0, by decide⟩).val :=
  dot_S400x1936_S1936x512_S400x512_1_0_0_1_n_n.lhsIdx_val_of_single rfl j c
theorem bot_rhs0 (j : S400x512.Idx) (c : dot_S400x1936_S1936x512_S400x512_1_0_0_1_n_n.contr.Idx) :
    (dot_S400x1936_S1936x512_S400x512_1_0_0_1_n_n.rhsIdx j c 0).val = (c ⟨0, by decide⟩).val :=
  dot_S400x1936_S1936x512_S400x512_1_0_0_1_n_n.rhsIdx_val_of_single rfl j c
theorem bot_rhs1 (j : S400x512.Idx) (c : dot_S400x1936_S1936x512_S400x512_1_0_0_1_n_n.contr.Idx) :
    (dot_S400x1936_S1936x512_S400x512_1_0_0_1_n_n.rhsIdx j c 1).val = (j 1).val := by
  unfold DotDims.rhsIdx
  rw [dif_neg (show ¬(1 : Fin S1936x512.rank) ∈ dot_S400x1936_S1936x512_S400x512_1_0_0_1_n_n.rhsBatch by decide),
    dif_pos (show (1 : Fin S1936x512.rank) ∈ dot_S400x1936_S1936x512_S400x512_1_0_0_1_n_n.rhsNonContracting by decide)]
  rfl

/-- The 400×1936 by 1936×512 product into a zero accumulator, at an index: the sum over the contracted axis. -/
theorem mm_bot {φ₁ φ₂ : FTy} (a : FVec Ideal S400x1936 φ₁) (b : FVec Ideal S1936x512 φ₂) (p : Fin 400) (q : Fin 512) :
    matmul (F := Ideal) dot_S400x1936_S1936x512_S400x512_1_0_0_1_n_n none a b (constant S400x512 .f32 0x00000000#32) (ix2 p q)
      = ∑ k : Fin 1936, a (ix2 p k) * b (ix2 k q) := by
  show FloatOps.matmul dot_S400x1936_S1936x512_S400x512_1_0_0_1_n_n none a b (constant S400x512 .f32 0x00000000#32) (ix2 p q) = _
  rw [Ideal.matmul_constant_zero_apply,
    ← Equiv.sum_comp (contrEquiv1 dot_S400x1936_S1936x512_S400x512_1_0_0_1_n_n 1936 rfl rfl).symm]
  refine Finset.sum_congr rfl fun k _ => ?_
  have hk := contrEquiv1_symm_val dot_S400x1936_S1936x512_S400x512_1_0_0_1_n_n 1936 rfl rfl k
  have hl : dot_S400x1936_S1936x512_S400x512_1_0_0_1_n_n.lhsIdx (ix2 p q)
      ((contrEquiv1 dot_S400x1936_S1936x512_S400x512_1_0_0_1_n_n 1936 rfl rfl).symm k) = ix2 p k :=
    funext fun d => Fin.ext (by
      match d with
      | ⟨0, _⟩ => exact bot_lhs0 _ _
      | ⟨1, _⟩ => exact (bot_lhs1 _ _).trans hk)
  have hr : dot_S400x1936_S1936x512_S400x512_1_0_0_1_n_n.rhsIdx (ix2 p q)
      ((contrEquiv1 dot_S400x1936_S1936x512_S400x512_1_0_0_1_n_n 1936 rfl rfl).symm k) = ix2 k q :=
    funext fun d => Fin.ext (by
      match d with
      | ⟨0, _⟩ => exact (bot_rhs0 _ _).trans hk
      | ⟨1, _⟩ => exact bot_rhs1 _ _)
  rw [hl, hr]

end Cert.KernelIdeal.MatmulAt

end
-- ==== Proof.Val0.lean ====
/-
  Region 0's output array after the run, over the extended reals: the ten row blocks the points write back tile
  the array, and each is its rows of x · W1 + b1; so the array ends holding the affine map of the whole of x.
-/
import proofs.«155370_g68118181314611_cont_sun_m_1213_22_alg».proof.Proof.Reg0
import proofs.«155370_g68118181314611_cont_sun_m_1213_22_alg».proof.Proof.Spec
import proofs.«155370_g68118181314611_cont_sun_m_1213_22_alg».proof.Proof.MatmulAt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value at row p and column q: row p of the block through the weights, plus the bias row at q. -/
theorem out3_at (x0 : Vec Ideal S1000x512 .f32) (x1 : Vec Ideal S512x512 .f32) (x2 : Vec Ideal S1x512 .f32)
    (p : Fin 1000) (q : Fin 512) :
    Reg0.out3 (F := Ideal) x0 x1 x2 (ix2 p q) = (∑ k : Fin 512, x0 (ix2 p k) * x1 (ix2 k q)) + x2 (ix2 (0 : Fin 1) q) := by
  unfold Reg0.out3 k0_pay1
  rw [truncf_apply, addf_apply, MatmulAt.mm_x, shapeCast_self, broadcastTo_1b_ab_apply]

/-- The four index maps over the ten points: the block of x and the output block sit at row block t, column block 0;
    the weights and the bias row are their arrays' one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of x, at row p and column k, is x at row 1000 t + p. -/
theorem x_blk (c : Dev nD) (t : Fin cfg0.N) (p : Fin 1000) (k : Fin 512) (r : Fin 10000) (hr : r.val = t.val * 1000 + p.val) :
    (Reg0.iblk V c 0 t : Vec Ideal S1000x512 .f32) (ix2 p k) = (V c main_arg0 : S10000x512.Idx → Elt Ideal .f32) (ix2 r k) := by
  unfold Reg0.iblk
  rw [View.read_apply]
  show V c main_arg0 _ = V c main_arg0 _
  congr 1
  funext a; apply Fin.ext
  match a with
  | ⟨0, _⟩ => show win0_0.index t 0 * 1000 + 1 * p.val = r.val; rw [(idx0 t).1, hr]; omega
  | ⟨1, _⟩ => show win0_0.index t 1 * 512 + 1 * k.val = k.val; rw [(idx0 t).2.1]; omega

/-- Every point's block of the weights is the weights. -/
theorem w_blk (c : Dev nD) (t : Fin cfg0.N) (k : Fin 512) (q : Fin 512) :
    (Reg0.iblk V c 1 t : Vec Ideal S512x512 .f32) (ix2 k q) = (V c main_arg2 : S512x512.Idx → Elt Ideal .f32) (ix2 k q) := by
  unfold Reg0.iblk
  rw [View.read_apply]
  show V c main_arg2 _ = V c main_arg2 _
  congr 1
  funext a; apply Fin.ext
  match a with
  | ⟨0, _⟩ => show win0_1.index t 0 * 512 + 1 * k.val = k.val; rw [(idx0 t).2.2.1]; omega
  | ⟨1, _⟩ => show win0_1.index t 1 * 512 + 1 * q.val = q.val; rw [(idx0 t).2.2.2.1]; omega

/-- Every point's block of the bias row is the bias row. -/
theorem b_blk (c : Dev nD) (t : Fin cfg0.N) (q : Fin 512) :
    (Reg0.iblk V c 2 t : Vec Ideal S1x512 .f32) (ix2 (0 : Fin 1) q) = (V c main_v0 : S1x512.Idx → Elt Ideal .f32) (ix2 (0 : Fin 1) q) := by
  unfold Reg0.iblk
  rw [View.read_apply]
  show V c main_v0 _ = V c main_v0 _
  congr 1
  funext a; apply Fin.ext
  match a with
  | ⟨0, _⟩ => show win0_2.index t 0 * 1 + 1 * 0 = 0; rw [(idx0 t).2.2.2.2.1]
  | ⟨1, _⟩ => show win0_2.index t 1 * 512 + 1 * q.val = q.val; rw [(idx0 t).2.2.2.2.2.1]; omega

/-- The affine map at row r and column q. -/
theorem lin_at (x : Cert.Spec.Arr 10000 512) (W : Cert.Spec.Arr 512 512) (b : Cert.Spec.Arr 1 512) (r : Fin 10000) (q : Fin 512) :
    Cert.Spec.lin x W b (ix2 r q) = (∑ k : Fin 512, x (ix2 r k) * W (ix2 k q)) + b (ix2 (0 : Fin 1) q) := rfl

/-- What point t writes back is block t of the affine map of the whole of x. -/
theorem flushed3_eq (c : Dev nD) (t : Fin cfg0.N) :
    (Reg0.dat (F := Ideal) V c).flushed 3 t
      = ((cfg0.win 3).blk t).view.read (Elt Ideal) (Cert.Spec.lin (V c main_arg0) (V c main_arg2) (V c main_v0)) := by
  show (cfg0.win 3).cut (grid0.coords t) ((Reg0.dat (F := Ideal) V c).after 3 t) = _
  rw [Reg0.after_3]
  funext j
  have hj0 : (j 0).val < 1000 := (j 0).isLt
  have hj1 : (j 1).val < 512 := (j 1).isLt
  have ht : t.val < 10 := t.isLt
  rw [View.read_apply, cast_eq]
  -- the stored block is read at the same coordinates
  show Reg0.out3 _ _ _ ((cfg0.win 3).xinj (grid0.coords t) j) = _
  rw [show (cfg0.win 3).xinj (grid0.coords t) j = ix2 (⟨(j 0).val, hj0⟩ : Fin 1000) (⟨(j 1).val, hj1⟩ : Fin 512) from
    funext fun a => match a with | ⟨0, _⟩ => rfl | ⟨1, _⟩ => rfl]
  rw [out3_at]
  -- the block's element (j0, j1) sits in the array at row 1000 t + j0, column j1
  have he : (((cfg0.win 3).blk t).view.emb j : S10000x512.Idx)
      = ix2 (⟨t.val * 1000 + (j 0).val, by omega⟩ : Fin 10000) (⟨(j 1).val, hj1⟩ : Fin 512) := by
    funext a; apply Fin.ext
    match a with
    | ⟨0, _⟩ => show win0_3.index t 0 * 1000 + 1 * (j 0).val = t.val * 1000 + (j 0).val; rw [(idx0 t).2.2.2.2.2.2.1]; omega
    | ⟨1, _⟩ => show win0_3.index t 1 * 512 + 1 * (j 1).val = (j 1).val; rw [(idx0 t).2.2.2.2.2.2.2]; omega
  rw [he, lin_at, b_blk]
  congr 1
  refine Finset.sum_congr rfl fun k _ => ?_
  rw [x_blk V c t ⟨(j 0).val, hj0⟩ k ⟨t.val * 1000 + (j 0).val, by omega⟩ rfl, w_blk]

/-- The ten row blocks tile the array: row r lies in the block of point r / 1000. -/
theorem cover3 (i : S10000x512.Idx) :
    ∃ t : Fin cfg0.N, (cfg0.win 3).flush t = true ∧ i ∈ ((cfg0.win 3).blk t).view.set := by
  have hi0 : (i 0).val < 10000 := (i 0).isLt
  have hi1 : (i 1).val < 512 := (i 1).isLt
  obtain ⟨t, ht⟩ : ∃ t : Fin cfg0.N, t.val = (i 0).val / 1000 :=
    ⟨⟨(i 0).val / 1000, by show _ < 10; omega⟩, rfl⟩
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 1000 ≤ (i 0).val ∧ (i 0).val < win0_3.index t 0 * 1000 + 1000
    rw [(idx0 t).2.2.2.2.2.2.1]; omega
  | ⟨1, _⟩ =>
    show win0_3.index t 1 * 512 ≤ (i 1).val ∧ (i 1).val < win0_3.index t 1 * 512 + 512
    rw [(idx0 t).2.2.2.2.2.2.2]; omega

/-- The output array of region 0 after its run: x · W1 + b1 of the arrays the region found. -/
theorem final (c : Dev nD) :
    (Reg0.dat (F := Ideal) V c).arrAt 3 cfg0.N = Cert.Spec.lin (V c main_arg0) (V c main_arg2) (V c main_v0) :=
  (Reg0.dat (F := Ideal) V c).arrAt_eq_of_cover 3 _ (fun t _ => flushed3_eq V c t) cover3

end Cert.KernelIdeal.Val0

end
-- ==== Proof.Val1.lean ====
/-
  Region 1's two output arrays after the run, over the extended reals: the 25 row blocks the points write back
  tile each array; a block of the first is its rows of max (hg · t1) 0 · W2 + b2, a block of the second its rows of
  the last 1936 columns of hg.
-/
import proofs.«155370_g68118181314611_cont_sun_m_1213_22_alg».proof.Proof.Reg1
import proofs.«155370_g68118181314611_cont_sun_m_1213_22_alg».proof.Proof.Spec
import proofs.«155370_g68118181314611_cont_sun_m_1213_22_alg».proof.Proof.MatmulAt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## Where each window's block sits at a point -/

/-- The block indices at point t: the row-blocked windows (hg's rows and the two outputs) are at row block t,
    the whole-array windows at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The second output: the last 1936 columns of hg -/

/-- The second stored value at row p, column q is the loaded block's entry at row p, column 8064 + q. -/
theorem pay2_at (x0 : Vec Ideal S400x10000 .f32) (p : Fin 400) (q : Fin 1936) :
    k1_pay2 x0 (ix2 p q) = x0 (ix2 p ⟨8064 + q.val, by omega⟩) := by
  unfold k1_pay2 k1_pay1
  refine (extractStridedSlice_apply _ _ _ (ix2 p q) (ix2 p ⟨8064 + q.val, by omega⟩) fun a => ?_).trans ?_
  · match a with
    | ⟨0, _⟩ => show p.val = 0 + p.val; omega
    | ⟨1, _⟩ => rfl
  · rfl

/-- What a point writes back through the second output window is its rows of the last 1936 columns of hg. -/
theorem flushed5_eq (c : Dev nD) (t : Fin cfg1.N) :
    (Reg1.dat (F := Ideal) V c).flushed 5 t
      = ((cfg1.win 5).blk t).view.read (Elt Ideal) (Cert.Spec.tailCols (V c main_arg1)) := by
  show (cfg1.win 5).cut (grid1.coords t) ((Reg1.dat V c).after 5 t) = _
  rw [Reg1.after_5]
  unfold Reg1.out5
  funext j
  have hj0 : (j 0).val < 400 := (j 0).isLt
  have hj1 : (j 1).val < 1936 := (j 1).isLt
  have e : (cfg1.win 5).xinj (grid1.coords t) j = ix2 ⟨(j 0).val, hj0⟩ ⟨(j 1).val, hj1⟩ := by
    funext a; match a with | ⟨0, _⟩ => rfl | ⟨1, _⟩ => rfl
  show k1_pay2 (Reg1.iblk V c 0 t) ((cfg1.win 5).xinj (grid1.coords t) j) = _
  rw [e, pay2_at]
  rw [View.read_apply]
  unfold Reg1.iblk
  rw [View.read_apply]
  unfold Spec.tailCols
  show V c main_arg1 _ = V c main_arg1 _
  congr 1
  obtain ⟨e0, e1, -, -, -, -, -, -, -, -, e10, e11⟩ := idx_facts t
  funext a; apply Fin.ext
  match a with
  | ⟨0, _⟩ =>
    show win1_0.index t (0 : Fin 2) * 400 + 1 * (j 0).val = win1_5.index t (0 : Fin 2) * 400 + 1 * (j 0).val
    rw [e0, e10]
  | ⟨1, _⟩ =>
    show win1_0.index t (1 : Fin 2) * 10000 + 1 * (8064 + (j 1).val) = 8064 + (win1_5.index t (1 : Fin 2) * 1936 + 1 * (j 1).val)
    rw [e1, e11]; omega

/-- An index of the second output array is in a point's block iff its row is among that point's 400 rows. -/
theorem mem_blk5 (t : Fin cfg1.N) (i : S10000x1936.Idx) :
    i ∈ ((cfg1.win 5).blk t).view.set ↔ ∀ a : Fin 2, win1_5.index t a * S400x1936.size a ≤ (i a).val
      ∧ (i a).val < win1_5.index t a * S400x1936.size a + S400x1936.size a := by
  show i ∈ ((View.whole main_v4_1).slice (win1_5.rect t)).set ↔ _
  rw [View.set_slice_whole, Rect.mem_set_unit]
  exact Iff.rfl

/-- Row r of the second output array is written by point r / 400. -/
theorem cover5 (i : S10000x1936.Idx) :
    ∃ t : Fin cfg1.N, (cfg1.win 5).flush t = true ∧ i ∈ ((cfg1.win 5).blk t).view.set := by
  have hi0 : (i 0).val < 10000 := idx2_lt0 i
  have hi1 : (i 1).val < 1936 := idx2_lt1 i
  have ht : (i 0).val / 400 < cfg1.N := by show _ < grid1.N; rw [N_1]; omega
  obtain ⟨-, -, -, -, -, -, -, -, -, -, e10, e11⟩ := idx_facts ⟨(i 0).val / 400, ht⟩
  refine ⟨⟨(i 0).val / 400, ht⟩, flush1_5 _, ?_⟩
  rw [mem_blk5]
  intro a
  match a with
  | ⟨0, _⟩ =>
    show win1_5.index ⟨(i 0).val / 400, ht⟩ (0 : Fin 2) * 400 ≤ (i 0).val
      ∧ (i 0).val < win1_5.index ⟨(i 0).val / 400, ht⟩ (0 : Fin 2) * 400 + 400
    rw [e10]; show (i 0).val / 400 * 400 ≤ (i 0).val ∧ (i 0).val < (i 0).val / 400 * 400 + 400; omega
  | ⟨1, _⟩ =>
    show win1_5.index ⟨(i 0).val / 400, ht⟩ (1 : Fin 2) * 1936 ≤ (i 1).val
      ∧ (i 1).val < win1_5.index ⟨(i 0).val / 400, ht⟩ (1 : Fin 2) * 1936 + 1936
    rw [e11]; omega

/-- The second output array of region 1 after its run: the last 1936 columns of hg. -/
theorem final5 (c : Dev nD) :
    (Reg1.dat (F := Ideal) V c).arrAt 5 cfg1.N = Cert.Spec.tailCols (V c main_arg1) :=
  (Reg1.dat (F := Ideal) V c).arrAt_eq_of_cover 5 _ (fun t _ => flushed5_eq V c t) (fun i => cover5 i)

/-! ## The first output: max (hg · t1) 0 · W2 + b2 -/

/-- The first stored value at row p, column q: the loaded rows of hg through t1, rectified, through W2, plus the
    bias row's entry q. -/
theorem pay3_at (x0 : Vec Ideal S400x10000 .f32) (x1 : Vec Ideal S10000x512 .bf16) (x2 : Vec Ideal S512x512 .bf16)
    (x3 : Vec Ideal S1x512 .f32) (p : Fin 400) (q : Fin 512) :
    k1_pay3 x0 x1 x2 x3 (ix2 p q)
      = (∑ k : Fin 512, max (∑ l : Fin 10000, x0 (ix2 p l) * x1 (ix2 l k)) 0 * x2 (ix2 k q)) + x3 (ix2 0 q) := by
  unfold k1_pay3 k1_pay1
  simp only [shapeCast_self]
  rw [truncf_apply, addf_apply, MatmulAt.mm_w]
  congr 1
  · refine Finset.sum_congr rfl fun k _ => ?_
    rw [truncf_apply, maximumf_apply, MatmulAt.mm_hg, broadcast_apply, Ideal.ofBits_def, Ideal.ofBits_zero_f32]
    rfl
  · exact broadcastTo_apply _ _ (ix2 p q) (ix2 0 q) fun a => by
      match a with
      | ⟨0, _⟩ => rfl
      | ⟨1, _⟩ => rfl

/-- Row p of the block of hg a point loads is row 400 t + p of hg. -/
theorem iblk0_at (c : Dev nD) (t : Fin cfg1.N) (p : Fin 400) (l : Fin 10000) (r : Fin 10000)
    (hr : r.val = t.val * 400 + p.val) :
    Reg1.iblk V c 0 t (ix2 p l) = V c main_arg1 (ix2 r l) := by
  obtain ⟨e0, e1, -⟩ := idx_facts t
  unfold Reg1.iblk
  rw [View.read_apply]
  show V c main_arg1 _ = V c main_arg1 _
  congr 1
  funext a; apply Fin.ext
  match a with
  | ⟨0, _⟩ => show win1_0.index t (0 : Fin 2) * 400 + 1 * p.val = r.val; rw [e0, hr]; omega
  | ⟨1, _⟩ => show win1_0.index t (1 : Fin 2) * 10000 + 1 * l.val = l.val; rw [e1]; omega

/-- The block of t1 a point loads is all of t1. -/
theorem iblk1_at (c : Dev nD) (t : Fin cfg1.N) (l : Fin 10000) (k : Fin 512) :
    Reg1.iblk V c 1 t (ix2 l k) = V c main_v1 (ix2 l k) := by
  obtain ⟨-, -, e2, e3, -⟩ := idx_facts t
  unfold Reg1.iblk
  rw [View.read_apply]
  show V c main_v1 _ = V c main_v1 _
  congr 1
  funext a; apply Fin.ext
  match a with
  | ⟨0, _⟩ => show win1_1.index t (0 : Fin 2) * 10000 + 1 * l.val = l.val; rw [e2]; omega
  | ⟨1, _⟩ => show win1_1.index t (1 : Fin 2) * 512 + 1 * k.val = k.val; rw [e3]; omega

/-- The block of W2 a point loads is all of W2. -/
theorem iblk2_at (c : Dev nD) (t : Fin cfg1.N) (k : Fin 512) (q : Fin 512) :
    Reg1.iblk V c 2 t (ix2 k q) = V c main_v2 (ix2 k q) := by
  obtain ⟨-, -, -, -, e4, e5, -⟩ := idx_facts t
  unfold Reg1.iblk
  rw [View.read_apply]
  show V c main_v2 _ = V c main_v2 _
  congr 1
  funext a; apply Fin.ext
  match a with
  | ⟨0, _⟩ => show win1_2.index t (0 : Fin 2) * 512 + 1 * k.val = k.val; rw [e4]; omega
  | ⟨1, _⟩ => show win1_2.index t (1 : Fin 2) * 512 + 1 * q.val = q.val; rw [e5]; omega

/-- The block of the bias row a point loads is the whole row. -/
theorem iblk3_at (c : Dev nD) (t : Fin cfg1.N) (u : Fin 1) (q : Fin 512) :
    Reg1.iblk V c 3 t (ix2 u q) = V c main_v3 (ix2 u q) := by
  obtain ⟨-, -, -, -, -, -, e6, e7, -⟩ := idx_facts t
  unfold Reg1.iblk
  rw [View.read_apply]
  show V c main_v3 _ = V c main_v3 _
  congr 1
  funext a; apply Fin.ext
  match a with
  | ⟨0, _⟩ => show win1_3.index t (0 : Fin 2) * 1 + 1 * u.val = u.val; rw [e6]; omega
  | ⟨1, _⟩ => show win1_3.index t (1 : Fin 2) * 512 + 1 * q.val = q.val; rw [e7]; omega

/-- The first stored value's sum, on the blocks a point loads, is the layer's value at row 400 t + (the row in the
    block) and the block's column. -/
theorem lin_at (c : Dev nD) (t : Fin cfg1.N)
    (x0 : Vec Ideal S400x10000 .f32) (x1 : Vec Ideal S10000x512 .bf16) (x2 : Vec Ideal S512x512 .bf16) (x3 : Vec Ideal S1x512 .f32)
    (hx0 : x0 = Reg1.iblk V c 0 t) (hx1 : x1 = Reg1.iblk V c 1 t) (hx2 : x2 = Reg1.iblk V c 2 t) (hx3 : x3 = Reg1.iblk V c 3 t)
    (p : Fin 400) (q : Fin 512) (r : Fin 10000) (hr : r.val = t.val * 400 + p.val) :
    (∑ k : Fin 512, max (∑ l : Fin 10000, x0 (ix2 p l) * x1 (ix2 l k)) 0 * x2 (ix2 k q)) + x3 (ix2 0 q)
      = Cert.Spec.lin (Cert.Spec.prop (V c main_arg1) (V c main_v1)) (V c main_v2) (V c main_v3) (ix2 r q) := by
  unfold Spec.lin Spec.prop
  refine congrArg₂ (· + ·) (Finset.sum_congr rfl fun k _ => congrArg₂ (· * ·) ?_ ?_) ?_
  · refine congrArg (max · 0) (Finset.sum_congr rfl fun l _ => ?_)
    rw [hx0, hx1, iblk0_at V c t p l r hr, iblk1_at]
  · rw [hx2, iblk2_at]
  · rw [hx3, iblk3_at]

/-- What a point writes back through the first output window is its rows of max (hg · t1) 0 · W2 + b2. -/
theorem flushed4_eq (c : Dev nD) (t : Fin cfg1.N) :
    (Reg1.dat (F := Ideal) V c).flushed 4 t
      = ((cfg1.win 4).blk t).view.read (Elt Ideal)
          (Cert.Spec.lin (Cert.Spec.prop (V c main_arg1) (V c main_v1)) (V c main_v2) (V c main_v3)) := by
  show (cfg1.win 4).cut (grid1.coords t) ((Reg1.dat V c).after 4 t) = _
  rw [Reg1.after_4]
  unfold Reg1.out4
  funext j
  have hj0 : (j 0).val < 400 := (j 0).isLt
  have hj1 : (j 1).val < 512 := (j 1).isLt
  have ht : t.val < 25 := lt_of_lt_of_eq t.isLt N_1
  have hr : t.val * 400 + (j 0).val < 10000 := by omega
  have e : (cfg1.win 4).xinj (grid1.coords t) j = ix2 ⟨(j 0).val, hj0⟩ ⟨(j 1).val, hj1⟩ := by
    funext a; match a with | ⟨0, _⟩ => rfl | ⟨1, _⟩ => rfl
  show k1_pay3 (Reg1.iblk V c 0 t) (Reg1.iblk V c 1 t) (Reg1.iblk V c 2 t) (Reg1.iblk V c 3 t)
      ((cfg1.win 4).xinj (grid1.coords t) j) = _
  rw [e, pay3_at, View.read_apply]
  obtain ⟨-, -, -, -, -, -, -, -, e8, e9, -⟩ := idx_facts t
  have hemb : ((cfg1.win 4).blk t).view.emb j = ix2 ⟨t.val * 400 + (j 0).val, hr⟩ ⟨(j 1).val, hj1⟩ := by
    funext a; apply Fin.ext
    match a with
    | ⟨0, _⟩ => show win1_4.index t (0 : Fin 2) * 400 + 1 * (j 0).val = t.val * 400 + (j 0).val; rw [e8]; omega
    | ⟨1, _⟩ => show win1_4.index t (1 : Fin 2) * 512 + 1 * (j 1).val = (j 1).val; rw [e9]; omega
  rw [hemb]
  exact lin_at V c t _ _ _ _ rfl rfl rfl rfl ⟨(j 0).val, hj0⟩ ⟨(j 1).val, hj1⟩ _ rfl

/-- An index of the first output array is in a point's block iff its row is among that point's 400 rows. -/
theorem mem_blk4 (t : Fin cfg1.N) (i : S10000x512.Idx) :
    i ∈ ((cfg1.win 4).blk t).view.set ↔ ∀ a : Fin 2, win1_4.index t a * S400x512.size a ≤ (i a).val
      ∧ (i a).val < win1_4.index t a * S400x512.size a + S400x512.size a := by
  show i ∈ ((View.whole main_v4_0).slice (win1_4.rect t)).set ↔ _
  rw [View.set_slice_whole, Rect.mem_set_unit]
  exact Iff.rfl

/-- Row r of the first output array is written by point r / 400. -/
theorem cover4 (i : S10000x512.Idx) :
    ∃ t : Fin cfg1.N, (cfg1.win 4).flush t = true ∧ i ∈ ((cfg1.win 4).blk t).view.set := by
  have hi0 : (i 0).val < 10000 := idx2_lt0 i
  have hi1 : (i 1).val < 512 := idx2_lt1 i
  have ht : (i 0).val / 400 < cfg1.N := by show _ < grid1.N; rw [N_1]; omega
  obtain ⟨-, -, -, -, -, -, -, -, e8, e9, -⟩ := idx_facts ⟨(i 0).val / 400, ht⟩
  refine ⟨⟨(i 0).val / 400, ht⟩, flush1_4 _, ?_⟩
  rw [mem_blk4]
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    rw [e8]; show (i 0).val / 400 * 400 ≤ (i 0).val ∧ (i 0).val < (i 0).val / 400 * 400 + 400; omega
  | ⟨1, _⟩ =>
    show win1_4.index ⟨(i 0).val / 400, ht⟩ (1 : Fin 2) * 512 ≤ (i 1).val
      ∧ (i 1).val < win1_4.index ⟨(i 0).val / 400, ht⟩ (1 : Fin 2) * 512 + 512
    rw [e9]; omega

/-- The first output array of region 1 after its run. -/
theorem final4 (c : Dev nD) :
    (Reg1.dat (F := Ideal) V c).arrAt 4 cfg1.N
      = Cert.Spec.lin (Cert.Spec.prop (V c main_arg1) (V c main_v1)) (V c main_v2) (V c main_v3) :=
  (Reg1.dat (F := Ideal) V c).arrAt_eq_of_cover 4 _ (fun t _ => flushed4_eq V c t) (fun i => cover4 i)

end Cert.KernelIdeal.Val1

end
-- ==== Proof.Val2.lean ====
/-
  Region 2's output array after the run, over the extended reals: the 25 row blocks the points write back tile the
  array, and each is its rows of max (hg[:, :8064] · t2[:8064] + hgc · t2[8064:]) 0 · W3 + b3.
-/
import proofs.«155370_g68118181314611_cont_sun_m_1213_22_alg».proof.Proof.Reg2
import proofs.«155370_g68118181314611_cont_sun_m_1213_22_alg».proof.Proof.Spec
import proofs.«155370_g68118181314611_cont_sun_m_1213_22_alg».proof.Proof.MatmulAt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The grid's index maps and the first window's cut, over the 25 points -/

/-- At point t the blocks of hg, of its copied columns and of the output are the t-th row blocks, and the blocks of t2,
    of the weights and of the bias row are the whole arrays. -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

/-- The first window's block (rows [400 t, 400 t + 400), columns [0, 8064) of hg) never reaches the array's end:
    it is cut on no axis. -/
theorem no_cut : ∀ t : Fin cfg2.N, ∀ a : Fin 2, win2_0.clip (grid2.coords t) a = none :=
  (by decide +kernel : ∀ t : Fin grid2.N, ∀ a : Fin 2, win2_0.clip (grid2.coords t) a = none)

theorem t_lt (t : Fin cfg2.N) : t.val < 25 := by have := t.isLt; have h : cfg2.N = 25 := N_2; omega

/-! ## The input blocks, element by element -/

/-- The block of the copied columns at point t is rows [400 t, 400 t + 400) of the copy. -/
theorem iblk1_at (c : Dev nD) (t : Fin cfg2.N) (p : Fin 400) (k : Fin 1936) :
    (Reg2.iblk V c 1 t : Vec Ideal S400x1936 .bf16) (ix2 p k)
      = V c main_v4_1 (ix2 ⟨400 * t.val + p.val, by have := t_lt t; omega⟩ k) := by
  obtain ⟨-, -, e0, e1, -⟩ := idx_facts t
  unfold Reg2.iblk
  rw [View.read_apply]
  show V c main_v4_1 _ = V c main_v4_1 _
  congr 1
  funext a
  apply Fin.ext
  match a with
  | ⟨0, _⟩ => show win2_1.index t (0 : Fin 2) * 400 + 1 * p.val = 400 * t.val + p.val; rw [e0]; omega
  | ⟨1, _⟩ => show win2_1.index t (1 : Fin 2) * 1936 + 1 * k.val = k.val; rw [e1]; omega

/-- The block of t2 at every point is the whole of t2. -/
theorem iblk2_at (c : Dev nD) (t : Fin cfg2.N) (j : S10000x512.Idx) :
    (Reg2.iblk V c 2 t : Vec Ideal S10000x512 .bf16) j = V c main_v4_0 j := by
  obtain ⟨-, -, -, -, e0, e1, -⟩ := idx_facts t
  unfold Reg2.iblk
  rw [View.read_apply]
  show V c main_v4_0 _ = V c main_v4_0 _
  congr 1
  funext a
  apply Fin.ext
  match a with
  | ⟨0, _⟩ => show win2_2.index t (0 : Fin 2) * 10000 + 1 * (j 0).val = (j 0).val; rw [e0]; omega
  | ⟨1, _⟩ => show win2_2.index t (1 : Fin 2) * 512 + 1 * (j 1).val = (j 1).val; rw [e1]; omega

/-- The block of the weights at every point is the whole matrix. -/
theorem iblk3_at (c : Dev nD) (t : Fin cfg2.N) (j : S512x512.Idx) :
    (Reg2.iblk V c 3 t : Vec Ideal S512x512 .bf16) j = V c main_v5 j := by
  obtain ⟨-, -, -, -, -, -, e0, e1, -⟩ := idx_facts t
  unfold Reg2.iblk
  rw [View.read_apply]
  show V c main_v5 _ = V c main_v5 _
  congr 1
  funext a
  apply Fin.ext
  match a with
  | ⟨0, _⟩ => show win2_3.index t (0 : Fin 2) * 512 + 1 * (j 0).val = (j 0).val; rw [e0]; omega
  | ⟨1, _⟩ => show win2_3.index t (1 : Fin 2) * 512 + 1 * (j 1).val = (j 1).val; rw [e1]; omega

/-- The block of the bias row at every point is the whole row. -/
theorem iblk4_at (c : Dev nD) (t : Fin cfg2.N) (j : S1x512.Idx) :
    (Reg2.iblk V c 4 t : Vec Ideal S1x512 .f32) j = V c main_v6 j := by
  obtain ⟨-, -, -, -, -, -, -, -, e0, e1, -⟩ := idx_facts t
  unfold Reg2.iblk
  rw [View.read_apply]
  show V c main_v6 _ = V c main_v6 _
  congr 1
  funext a
  apply Fin.ext
  match a with
  | ⟨0, _⟩ => show win2_4.index t (0 : Fin 2) * 1 + 1 * (j 0).val = (j 0).val; rw [e0]; omega
  | ⟨1, _⟩ => show win2_4.index t (1 : Fin 2) * 512 + 1 * (j 1).val = (j 1).val; rw [e1]; omega

/-- The staged block of hg at point t: every element is moved, and it is rows [400 t, 400 t + 400), columns
    [0, 8064) of hg. -/
theorem iblk0_at (c : Dev nD) (t : Fin cfg2.N) (p : Fin 400) (q : Fin 8064) :
    Reg2.iblk0 V c t (ix2 p q)
      = V c main_arg1 (ix2 ⟨400 * t.val + p.val, by have := t_lt t; omega⟩ ⟨q.val, by have := q.isLt; omega⟩) := by
  obtain ⟨e0, e1, -⟩ := idx_facts t
  have hm : win2_0.moved (grid2.coords t) (ix2 p q) = true := (win2_0.moved_iff _ _).mpr fun a => by
    show _ < (win2_0.clip (grid2.coords t) a).extent (win2_0.size a)
    rw [no_cut t a]
    exact (ix2 p q a).isLt
  unfold Reg2.iblk0 Window.fill
  rw [dif_pos hm]
  unfold Reg2.iblk
  rw [View.read_apply]
  show V c main_arg1 _ = V c main_arg1 _
  congr 1
  funext a
  apply Fin.ext
  match a with
  | ⟨0, _⟩ => show win2_0.index t (0 : Fin 2) * 400 + 1 * p.val = 400 * t.val + p.val; rw [e0]; omega
  | ⟨1, _⟩ => show win2_0.index t (1 : Fin 2) * 8064 + 1 * q.val = q.val; rw [e1]; omega

/-! ## The body's stored value at an index -/

/-- Over the extended reals the stored value at row p, column q is row p of the rectified sum of the two partial
    products, through the weights, plus the bias row at q: the format changes are the identity, each product into a zero
    accumulator is its sum over the contracted axis, the zero word is 0, and the one bias row is read at every row. -/
theorem pay_at (v0 : Vec Ideal S400x8064 .f32) (v2 : Vec Ideal S8064x512 .bf16) (v5 : Vec Ideal S400x1936 .bf16)
    (v7 : Vec Ideal S1936x512 .bf16) (v14 : Vec Ideal S512x512 .bf16) (v17 : Vec Ideal S1x512 .f32) (p : Fin 400) (q : Fin 512) :
    k2_pay1 v0 v2 v5 v7 v14 v17 (ix2 p q)
      = (∑ j : Fin 512, max ((∑ k : Fin 8064, v0 (ix2 p k) * v2 (ix2 k j)) + ∑ k : Fin 1936, v5 (ix2 p k) * v7 (ix2 k j)) 0
            * v14 (ix2 j q))
          + v17 (ix2 (0 : Fin 1) q) := by
  unfold k2_pay1
  simp only [shapeCast_self]
  rw [truncf_apply, addf_apply, MatmulAt.mm_w, broadcastTo_1b_ab_apply]
  congr 1
  refine Finset.sum_congr rfl fun j _ => ?_
  rw [truncf_apply, maximumf_apply, addf_apply, MatmulAt.mm_top, MatmulAt.mm_bot, broadcast_apply]
  simp only [truncf_apply]
  rw [show (Scalar.ofBits (F := Ideal) .f32 0x00000000#32) = (0 : EReal) from Ideal.ofBits_zero_f32]

/-- Row k, column q of the upper row range of t2 is row k of t2. -/
theorem rTop_idx (k : Fin 8064) (q : Fin 512) :
    Reg2.rTop.idx (ix2 k q) = ix2 ⟨k.val, by have := k.isLt; omega⟩ q := by
  funext a; apply Fin.ext
  match a with
  | ⟨0, _⟩ => show 0 + 1 * k.val = k.val; omega
  | ⟨1, _⟩ => show 0 + 1 * q.val = q.val; omega

/-- Row k, column q of the lower row range of t2 is row 8064 + k of t2. -/
theorem rBot_idx (k : Fin 1936) (q : Fin 512) :
    Reg2.rBot.idx (ix2 k q) = ix2 ⟨8064 + k.val, by have := k.isLt; omega⟩ q := by
  funext a; apply Fin.ext
  match a with
  | ⟨0, _⟩ => show 8064 + 1 * k.val = 8064 + k.val; omega
  | ⟨1, _⟩ => show 0 + 1 * q.val = q.val; omega

/-- The rectified sum of the two partial products of point t's blocks at row p, column j is the split smoothing at row
    400 t + p, column j. -/
theorem prop_at (c : Dev nD) (t : Fin cfg2.N) (x0 : Vec Ideal S400x8064 .f32) (x1 : Vec Ideal S400x1936 .bf16)
    (x2 : Vec Ideal S10000x512 .bf16) (h0 : x0 = Reg2.iblk0 V c t) (h1 : x1 = Reg2.iblk V c 1 t)
    (h2 : x2 = Reg2.iblk V c 2 t) (p : Fin 400) (j : Fin 512) :
    max ((∑ k : Fin 8064, x0 (ix2 p k) * View.ld x2 Reg2.rTop (ix2 k j))
        + ∑ k : Fin 1936, x1 (ix2 p k) * View.ld x2 Reg2.rBot (ix2 k j)) 0
      = Cert.Spec.propSplit (V c main_arg1) (V c main_v4_1) (V c main_v4_0)
          (ix2 ⟨400 * t.val + p.val, by have := t_lt t; omega⟩ j) := by
  subst h0 h1 h2
  unfold Cert.Spec.propSplit
  congr 2
  · refine Finset.sum_congr rfl fun k _ => ?_
    rw [iblk0_at]
    show _ * Reg2.iblk V c 2 t (Reg2.rTop.idx (ix2 k j)) = _
    rw [iblk2_at, rTop_idx]
  · refine Finset.sum_congr rfl fun k _ => ?_
    rw [iblk1_at]
    show _ * Reg2.iblk V c 2 t (Reg2.rBot.idx (ix2 k j)) = _
    rw [iblk2_at, rBot_idx]

/-- What point t leaves at row p, column q of its output block is the affine map of the split smoothing at row
    400 t + p, column q. -/
theorem out_at (c : Dev nD) (t : Fin cfg2.N) (p : Fin 400) (q : Fin 512) :
    Reg2.out5 (Reg2.iblk0 V c t) (Reg2.iblk V c 1 t) (Reg2.iblk V c 2 t) (Reg2.iblk V c 3 t) (Reg2.iblk V c 4 t) (ix2 p q)
      = Cert.Spec.lin (Cert.Spec.propSplit (V c main_arg1) (V c main_v4_1) (V c main_v4_0)) (V c main_v5) (V c main_v6)
          (ix2 ⟨400 * t.val + p.val, by have := t_lt t; omega⟩ q) := by
  unfold Reg2.out5
  rw [pay_at]
  unfold Cert.Spec.lin
  congr 1
  · refine Finset.sum_congr rfl fun j _ => ?_
    rw [prop_at V c t _ _ _ rfl rfl rfl p j, iblk3_at]
  · rw [iblk4_at]

/-! ## The blocks written back, and the array they tile -/

/-- What point t writes back is block t of the affine map of the split smoothing of the argument arrays. -/
theorem flushed_eq (c : Dev nD) (t : Fin cfg2.N) (hf : (cfg2.win 5).flush t = true) :
    (Reg2.dat (F := Ideal) V c).flushed 5 t
      = ((cfg2.win 5).blk t).view.read (Elt Ideal)
          (Cert.Spec.lin (Cert.Spec.propSplit (V c main_arg1) (V c main_v4_1) (V c main_v4_0)) (V c main_v5) (V c main_v6)) := by
  obtain ⟨-, -, -, -, -, -, -, -, -, -, e0, e1⟩ := idx_facts t
  show (cfg2.win 5).cut (grid2.coords t) ((Reg2.dat V c).after 5 t) = _
  rw [Reg2.after_5]
  refine funext fun (j : S400x512.Idx) => ?_
  rw [View.read_apply]
  have hj : ((cfg2.win 5).blk t).view.emb j
      = ix2 ⟨400 * t.val + (j 0).val, by have := t_lt t; have := idx2_lt0 j; omega⟩ (j 1) := by
    funext a; apply Fin.ext
    match a with
    | ⟨0, _⟩ => show win2_5.index t (0 : Fin 2) * 400 + 1 * (j 0).val = 400 * t.val + (j 0).val; rw [e0]; omega
    | ⟨1, _⟩ => show win2_5.index t (1 : Fin 2) * 512 + 1 * (j 1).val = (j 1).val; rw [e1]; omega
  have hx : win2_5.xinj (grid2.coords t) j = ix2 (j 0) (j 1) := by
    funext a
    match a with
    | ⟨0, _⟩ => rfl
    | ⟨1, _⟩ => rfl
  show Reg2.out5 (F := Ideal) _ _ _ _ _ (win2_5.xinj (grid2.coords t) j)
    = Cert.Spec.lin _ _ _ (((cfg2.win 5).blk t).view.emb j)
  rw [hj, hx]
  exact out_at V c t (j 0) (j 1)

/-- Row r of the output lies in the block of point r / 400. -/
theorem cover (i : S10000x512.Idx) :
    ∃ t : Fin cfg2.N, (cfg2.win 5).flush t = true ∧ i ∈ ((cfg2.win 5).blk t).view.set := by
  have hi0 := idx2_lt0 i
  have hi1 := idx2_lt1 i
  have hN : cfg2.N = 25 := N_2
  let t : Fin cfg2.N := ⟨(i 0).val / 400, by omega⟩
  obtain ⟨-, -, -, -, -, -, -, -, -, -, e0, e1⟩ := idx_facts t
  refine ⟨t, flush2_5 t, ?_⟩
  show i ∈ ((View.whole main_v7).slice (win2_5.rect t)).set
  rw [View.set_slice_whole, Rect.mem_set_unit]
  intro a
  match a with
  | ⟨0, _⟩ =>
    show win2_5.index t (0 : Fin 2) * 400 ≤ (i 0).val ∧ (i 0).val < win2_5.index t (0 : Fin 2) * 400 + 400
    rw [e0]; show (i 0).val / 400 * 400 ≤ _ ∧ _ < (i 0).val / 400 * 400 + 400; omega
  | ⟨1, _⟩ =>
    show win2_5.index t (1 : Fin 2) * 512 ≤ (i 1).val ∧ (i 1).val < win2_5.index t (1 : Fin 2) * 512 + 512
    rw [e1]; omega

/-- The output array of region 2 after its run. -/
theorem final (c : Dev nD) :
    (Reg2.dat (F := Ideal) V c).arrAt 5 cfg2.N
      = Cert.Spec.lin (Cert.Spec.propSplit (V c main_arg1) (V c main_v4_1) (V c main_v4_0)) (V c main_v5) (V c main_v6) :=
  (Reg2.dat (F := Ideal) V c).arrAt_eq_of_cover 5 _ (flushed_eq V c) cover

end Cert.KernelIdeal.Val2

end
-- ==== Proof.Val3.lean ====
/-
  Region 3's output array after the run, over the extended reals: the 25 row blocks the points write back tile the
  array, and each is its rows of max (hg[:, :8064] · t3[:8064] + hgc · t3[8064:]) 0.
-/
import proofs.«155370_g68118181314611_cont_sun_m_1213_22_alg».proof.Proof.Reg3
import proofs.«155370_g68118181314611_cont_sun_m_1213_22_alg».proof.Proof.Spec
import proofs.«155370_g68118181314611_cont_sun_m_1213_22_alg».proof.Proof.MatmulAt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The grid's index maps and the first window's cut, over the 25 points -/

/-- At point t the blocks of hg, of its copied columns and of the output are the t-th row blocks, and t3's block is
    the whole array. -/
theorem idx_facts : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = 0 ∧ win3_2.index t (1 : Fin 2) = 0
  ∧ win3_3.index t (0 : Fin 2) = t.val ∧ win3_3.index t (1 : Fin 2) = 0 :=
  (by decide +kernel : ∀ t : Fin grid3.N, _)

/-- The first window's block (rows [400 t, 400 t + 400), columns [0, 8064) of hg) never reaches the array's end:
    it is cut on no axis. -/
theorem no_cut : ∀ t : Fin cfg3.N, ∀ a : Fin 2, win3_0.clip (grid3.coords t) a = none :=
  (by decide +kernel : ∀ t : Fin grid3.N, ∀ a : Fin 2, win3_0.clip (grid3.coords t) a = none)

theorem t_lt (t : Fin cfg3.N) : t.val < 25 := by have := t.isLt; have h : cfg3.N = 25 := N_3; omega

/-! ## The input blocks, element by element -/

/-- The block of the copied columns at point t is rows [400 t, 400 t + 400) of the copy. -/
theorem iblk1_at (c : Dev nD) (t : Fin cfg3.N) (p : Fin 400) (k : Fin 1936) :
    (Reg3.iblk V c 1 t : Vec Ideal S400x1936 .bf16) (ix2 p k)
      = V c main_v4_1 (ix2 ⟨400 * t.val + p.val, by have := t_lt t; omega⟩ k) := by
  obtain ⟨-, -, e0, e1, -⟩ := idx_facts t
  unfold Reg3.iblk
  rw [View.read_apply]
  show V c main_v4_1 _ = V c main_v4_1 _
  congr 1
  funext a
  apply Fin.ext
  match a with
  | ⟨0, _⟩ => show win3_1.index t (0 : Fin 2) * 400 + 1 * p.val = 400 * t.val + p.val; rw [e0]; omega
  | ⟨1, _⟩ => show win3_1.index t (1 : Fin 2) * 1936 + 1 * k.val = k.val; rw [e1]; omega

/-- The block of t3 at every point is the whole of t3. -/
theorem iblk2_at (c : Dev nD) (t : Fin cfg3.N) (j : S10000x512.Idx) :
    (Reg3.iblk V c 2 t : Vec Ideal S10000x512 .bf16) j = V c main_v7 j := by
  obtain ⟨-, -, -, -, e0, e1, -⟩ := idx_facts t
  unfold Reg3.iblk
  rw [View.read_apply]
  show V c main_v7 _ = V c main_v7 _
  congr 1
  funext a
  apply Fin.ext
  match a with
  | ⟨0, _⟩ => show win3_2.index t (0 : Fin 2) * 10000 + 1 * (j 0).val = (j 0).val; rw [e0]; omega
  | ⟨1, _⟩ => show win3_2.index t (1 : Fin 2) * 512 + 1 * (j 1).val = (j 1).val; rw [e1]; omega

/-- The staged block of hg at point t: every element is moved, and it is rows [400 t, 400 t + 400), columns
    [0, 8064) of hg. -/
theorem iblk0_at (c : Dev nD) (t : Fin cfg3.N) (p : Fin 400) (q : Fin 8064) :
    Reg3.iblk0 V c t (ix2 p q)
      = V c main_arg1 (ix2 ⟨400 * t.val + p.val, by have := t_lt t; omega⟩ ⟨q.val, by have := q.isLt; omega⟩) := by
  obtain ⟨e0, e1, -⟩ := idx_facts t
  have hm : win3_0.moved (grid3.coords t) (ix2 p q) = true := (win3_0.moved_iff _ _).mpr fun a => by
    show _ < (win3_0.clip (grid3.coords t) a).extent (win3_0.size a)
    rw [no_cut t a]
    exact (ix2 p q a).isLt
  unfold Reg3.iblk0 Window.fill
  rw [dif_pos hm]
  unfold Reg3.iblk
  rw [View.read_apply]
  show V c main_arg1 _ = V c main_arg1 _
  congr 1
  funext a
  apply Fin.ext
  match a with
  | ⟨0, _⟩ => show win3_0.index t (0 : Fin 2) * 400 + 1 * p.val = 400 * t.val + p.val; rw [e0]; omega
  | ⟨1, _⟩ => show win3_0.index t (1 : Fin 2) * 8064 + 1 * q.val = q.val; rw [e1]; omega

/-! ## The body's stored value at an index -/

/-- Over the extended reals the stored value at row p, column q is the rectifier of the sum of the two partial
    products: the format change is the identity, each product into a zero accumulator is its sum over the contracted
    axis, and the zero word is 0. -/
theorem pay_at (v0 : Vec Ideal S400x8064 .f32) (v2 : Vec Ideal S8064x512 .bf16) (v5 : Vec Ideal S400x1936 .bf16)
    (v7 : Vec Ideal S1936x512 .bf16) (p : Fin 400) (q : Fin 512) :
    k3_pay1 v0 v2 v5 v7 (ix2 p q)
      = max ((∑ k : Fin 8064, v0 (ix2 p k) * v2 (ix2 k q)) + ∑ k : Fin 1936, v5 (ix2 p k) * v7 (ix2 k q)) 0 := by
  unfold k3_pay1
  simp only [shapeCast_self]
  rw [maximumf_apply, addf_apply, MatmulAt.mm_top, MatmulAt.mm_bot, broadcast_apply]
  simp only [truncf_apply]
  rw [show (Scalar.ofBits (F := Ideal) .f32 0x00000000#32) = (0 : EReal) from Ideal.ofBits_zero_f32]

/-- Row k, column q of the upper row range of t3 is row k of t3. -/
theorem rTop_idx (k : Fin 8064) (q : Fin 512) :
    Reg3.rTop.idx (ix2 k q) = ix2 ⟨k.val, by have := k.isLt; omega⟩ q := by
  funext a; apply Fin.ext
  match a with
  | ⟨0, _⟩ => show 0 + 1 * k.val = k.val; omega
  | ⟨1, _⟩ => show 0 + 1 * q.val = q.val; omega

/-- Row k, column q of the lower row range of t3 is row 8064 + k of t3. -/
theorem rBot_idx (k : Fin 1936) (q : Fin 512) :
    Reg3.rBot.idx (ix2 k q) = ix2 ⟨8064 + k.val, by have := k.isLt; omega⟩ q := by
  funext a; apply Fin.ext
  match a with
  | ⟨0, _⟩ => show 8064 + 1 * k.val = 8064 + k.val; omega
  | ⟨1, _⟩ => show 0 + 1 * q.val = q.val; omega

/-- What point t leaves at row p, column q of its output block is the split smoothing at row 400 t + p, column q. -/
theorem out_at (c : Dev nD) (t : Fin cfg3.N) (p : Fin 400) (q : Fin 512) :
    Reg3.out3 (Reg3.iblk0 V c t) (Reg3.iblk V c 1 t) (Reg3.iblk V c 2 t) (ix2 p q)
      = Cert.Spec.propSplit (V c main_arg1) (V c main_v4_1) (V c main_v7)
          (ix2 ⟨400 * t.val + p.val, by have := t_lt t; omega⟩ q) := by
  unfold Reg3.out3
  rw [pay_at]
  unfold Cert.Spec.propSplit
  congr 2
  · refine Finset.sum_congr rfl fun k _ => ?_
    rw [iblk0_at]
    show _ * Reg3.iblk V c 2 t (Reg3.rTop.idx (ix2 k q)) = _
    rw [iblk2_at, rTop_idx]
  · refine Finset.sum_congr rfl fun k _ => ?_
    rw [iblk1_at]
    show _ * Reg3.iblk V c 2 t (Reg3.rBot.idx (ix2 k q)) = _
    rw [iblk2_at, rBot_idx]

/-! ## The blocks written back, and the array they tile -/

/-- What point t writes back is block t of the split smoothing of the argument arrays. -/
theorem flushed_eq (c : Dev nD) (t : Fin cfg3.N) (hf : (cfg3.win 3).flush t = true) :
    (Reg3.dat (F := Ideal) V c).flushed 3 t
      = ((cfg3.win 3).blk t).view.read (Elt Ideal)
          (Cert.Spec.propSplit (V c main_arg1) (V c main_v4_1) (V c main_v7)) := by
  obtain ⟨-, -, -, -, -, -, e0, e1⟩ := idx_facts t
  show (cfg3.win 3).cut (grid3.coords t) ((Reg3.dat V c).after 3 t) = _
  rw [Reg3.after_3]
  refine funext fun (j : S400x512.Idx) => ?_
  rw [View.read_apply]
  have hj : ((cfg3.win 3).blk t).view.emb j
      = ix2 ⟨400 * t.val + (j 0).val, by have := t_lt t; have := idx2_lt0 j; omega⟩ (j 1) := by
    funext a; apply Fin.ext
    match a with
    | ⟨0, _⟩ => show win3_3.index t (0 : Fin 2) * 400 + 1 * (j 0).val = 400 * t.val + (j 0).val; rw [e0]; omega
    | ⟨1, _⟩ => show win3_3.index t (1 : Fin 2) * 512 + 1 * (j 1).val = (j 1).val; rw [e1]; omega
  have hx : win3_3.xinj (grid3.coords t) j = ix2 (j 0) (j 1) := by
    funext a
    match a with
    | ⟨0, _⟩ => rfl
    | ⟨1, _⟩ => rfl
  show Reg3.out3 (F := Ideal) _ _ _ (win3_3.xinj (grid3.coords t) j)
    = Cert.Spec.propSplit _ _ _ (((cfg3.win 3).blk t).view.emb j)
  rw [hj, hx]
  exact out_at V c t (j 0) (j 1)

/-- Row r of the output lies in the block of point r / 400. -/
theorem cover (i : S10000x512.Idx) :
    ∃ t : Fin cfg3.N, (cfg3.win 3).flush t = true ∧ i ∈ ((cfg3.win 3).blk t).view.set := by
  have hi0 := idx2_lt0 i
  have hi1 := idx2_lt1 i
  have hN : cfg3.N = 25 := N_3
  let t : Fin cfg3.N := ⟨(i 0).val / 400, by omega⟩
  obtain ⟨-, -, -, -, -, -, e0, e1⟩ := idx_facts t
  refine ⟨t, flush3_3 t, ?_⟩
  show i ∈ ((View.whole main_v8).slice (win3_3.rect t)).set
  rw [View.set_slice_whole, Rect.mem_set_unit]
  intro a
  match a with
  | ⟨0, _⟩ =>
    show win3_3.index t (0 : Fin 2) * 400 ≤ (i 0).val ∧ (i 0).val < win3_3.index t (0 : Fin 2) * 400 + 400
    rw [e0]; show (i 0).val / 400 * 400 ≤ _ ∧ _ < (i 0).val / 400 * 400 + 400; omega
  | ⟨1, _⟩ =>
    show win3_3.index t (1 : Fin 2) * 512 ≤ (i 1).val ∧ (i 1).val < win3_3.index t (1 : Fin 2) * 512 + 512
    rw [e1]; omega

/-- The output array of region 3 after its run. -/
theorem final (c : Dev nD) :
    (Reg3.dat (F := Ideal) V c).arrAt 3 cfg3.N
      = Cert.Spec.propSplit (V c main_arg1) (V c main_v4_1) (V c main_v7) :=
  (Reg3.dat (F := Ideal) V c).arrAt_eq_of_cover 3 _ (flushed_eq V c) cover

end Cert.KernelIdeal.Val3

end
-- ==== Proof.KValue.lean ====
/-
  The kernel's result array at the end of @main, over the extended reals: three layers of max (hg · (h · W + b)) 0 of
  the argument arrays. Each region's output is the layer map of what it was entered with (the four value modules);
  what it was entered with is an argument, a host operation's image of an argument (a bias as a one-row matrix, a
  weight matrix in a narrower format: the same numbers here), or an earlier region's output; and the smoothing with
  the contraction cut at column 8064, fed the copied columns, is the whole smoothing.
-/
import proofs.«155370_g68118181314611_cont_sun_m_1213_22_alg».proof.Proof.Entry
import proofs.«155370_g68118181314611_cont_sun_m_1213_22_alg».proof.Proof.Val0
import proofs.«155370_g68118181314611_cont_sun_m_1213_22_alg».proof.Proof.Val1
import proofs.«155370_g68118181314611_cont_sun_m_1213_22_alg».proof.Proof.Val2
import proofs.«155370_g68118181314611_cont_sun_m_1213_22_alg».proof.Proof.Val3
import Idealize.ShloMosaic.Lib.ValueLayout

noncomputable section

namespace Cert.KernelIdeal.KValue

open Cert.KernelIdeal Cert.KernelIdeal.Gen Cert.KernelIdeal.Bounds
open Idealize.ShloMosaic Idealize.ShloMosaic.TcCoe Idealize.ShloMosaic.ValueIdx
open Idealize.SL Idealize.SL.Sem
open Cert.Spec

/-- A bias vector reshaped to one row is `row` of it. -/
theorem reshape_row (b : Vec1 512) : (shapeCast S1x512 b shapeCasts_S512_S1x512 : Arr 1 512) = row b := by
  funext i
  obtain ⟨u, q, rfl⟩ : ∃ (u : Fin 1) (q : Fin 512), i = ix2 u q := ⟨i 0, i 1, eq_ix2 i⟩
  exact ValueIdx.shapeCast_a_1a_apply b shapeCasts_S512_S1x512 u q

/-- A change of float format changes no number. -/
theorem narrow_eq (W : Arr 512 512) : (truncf (F := Ideal) .bf16 W bitsLt_bf16_f32 : Arr 512 512) = W := rfl

variable (m : (ℓ : Loc nD τ sig) → Buf (Elt Ideal) ℓ)

/-- Region 0's output: the first affine map. -/
theorem t1_eq (c : Dev nD) : (Bounds.V3 m c main_v1 : Arr 10000 512)
    = lin (m ((c : Thread nD τ).loc main_arg0)) (m ((c : Thread nD τ).loc main_arg2)) (row (m ((c : Thread nD τ).loc main_arg3))) := by
  rw [Entry.V3_v1, Val0.final, Entry.V1_arg0, Entry.V1_arg2, Entry.V1_v0, reshape_row]

/-- Region 1's second output: the last columns of hg. -/
theorem hgc_eq (c : Dev nD) : ((Reg1.dat (Bounds.V3 m) c).arrAt 5 cfg1.N : Arr 10000 1936)
    = tailCols (m ((c : Thread nD τ).loc main_arg1)) := by
  rw [Val1.final5, Entry.V3_arg1]

/-- Region 1's first output: the first smoothing and the second affine map. -/
theorem t2_eq (c : Dev nD) : ((Reg1.dat (Bounds.V3 m) c).arrAt 4 cfg1.N : Arr 10000 512)
    = lin (prop (m ((c : Thread nD τ).loc main_arg1))
        (lin (m ((c : Thread nD τ).loc main_arg0)) (m ((c : Thread nD τ).loc main_arg2)) (row (m ((c : Thread nD τ).loc main_arg3)))))
        (m ((c : Thread nD τ).loc main_arg4)) (row (m ((c : Thread nD τ).loc main_arg5))) := by
  rw [Val1.final4, Entry.V3_arg1, t1_eq, Entry.V3_v2, Entry.V3_v3, reshape_row, narrow_eq]

/-- Region 2's output: the second smoothing and the third affine map. -/
theorem t3_eq (c : Dev nD) : ((Reg2.dat (Bounds.V5 m) c).arrAt 5 cfg2.N : Arr 10000 512)
    = lin (prop (m ((c : Thread nD τ).loc main_arg1))
        (lin (prop (m ((c : Thread nD τ).loc main_arg1))
          (lin (m ((c : Thread nD τ).loc main_arg0)) (m ((c : Thread nD τ).loc main_arg2)) (row (m ((c : Thread nD τ).loc main_arg3)))))
          (m ((c : Thread nD τ).loc main_arg4)) (row (m ((c : Thread nD τ).loc main_arg5)))))
        (m ((c : Thread nD τ).loc main_arg6)) (row (m ((c : Thread nD τ).loc main_arg7))) := by
  rw [Val2.final, Entry.V5_arg1, Entry.V5_v4_1, hgc_eq, Entry.V5_v4_0, t2_eq, Entry.V5_v5, Entry.V5_v6, reshape_row, narrow_eq,
    propSplit_tail]

/-- The result array at the end of @main. -/
theorem result_eq (c : Dev nD) : (W7 m c (Proc.devRef .tc main_v8) : Arr 10000 512)
    = layers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [Entry.W7_v8, Val3.final, Entry.V6_arg1, Entry.V6_v4_1, hgc_eq, Entry.V6_v7, t3_eq, propSplit_tail]
  rfl

end Cert.KernelIdeal.KValue

end
-- ==== Proof.Ref.lean ====
/-
  The reference's result, read at the extended reals: its run ends with the result array holding three layers of
  max (hg · (h · W + b)) 0 of the argument arrays — the function `Cert.Spec.layers`.
-/
import proofs.«155370_g68118181314611_cont_sun_m_1213_22_alg».proof.Proof.Gen.ReferenceIdeal.Run
import proofs.«155370_g68118181314611_cont_sun_m_1213_22_alg».proof.Proof.Gen.ReferenceIdeal.Read
import proofs.«155370_g68118181314611_cont_sun_m_1213_22_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen
open Idealize.ShloMosaic Idealize.ShloMosaic.TcCoe Idealize.SL.Sem Idealize.ShloMosaic.ValueIdx

open Cert.Spec

/-! ## The operand indices of the two products and of the bias, by coordinates

At the output index (p, q) and the contraction index k the left operand of a product is read at (p, k) and the
right one at (k, q); the bias row, spread over the rows, is read at q. -/

theorem lidx_lin (p : Fin 10000) (q k : Fin 512) : Read.lidx_main_v0 (ix2 p q) k = ix2 p k :=
  funext fun a => by match a with | ⟨0, _⟩ => rfl | ⟨1, _⟩ => rfl

theorem ridx_lin (p : Fin 10000) (q k : Fin 512) : Read.ridx_main_v0 (ix2 p q) k = ix2 k q :=
  funext fun a => by match a with | ⟨0, _⟩ => rfl | ⟨1, _⟩ => rfl

theorem idx_bias (p : Fin 10000) (q : Fin 512) : Read.idx_main_v1 (Read.idx_main_v2 (ix2 p q)) = ix1 q :=
  funext fun a => by match a with | ⟨0, _⟩ => rfl

theorem lidx_prop (p : Fin 10000) (q : Fin 512) (k : Fin 10000) : Read.lidx_main_v4 (ix2 p q) k = ix2 p k :=
  funext fun a => by match a with | ⟨0, _⟩ => rfl | ⟨1, _⟩ => rfl

theorem ridx_prop (p : Fin 10000) (q : Fin 512) (k : Fin 10000) : Read.ridx_main_v4 (ix2 p q) k = ix2 k q :=
  funext fun a => by match a with | ⟨0, _⟩ => rfl | ⟨1, _⟩ => rfl

/-! ## One layer -/

/-- The affine stage: the product of the rows with the weights plus the bias, the bias first made a one-row matrix and
    then repeated down the rows, is `lin` of the bias row. -/
theorem lin_eq (x : Arr 10000 512) (W : Arr 512 512) (b : Vec1 512) :
    Read.val_main_v3 (F := Ideal) x W b = lin x W (row b) := by
  funext i
  obtain ⟨p, q, rfl⟩ : ∃ (p : Fin 10000) (q : Fin 512), i = ix2 p q := ⟨i 0, i 1, eq_ix2 i⟩
  rw [Read.val_main_v3_apply, Read.val_main_v0_apply, Read.val_main_v2_apply, Read.val_main_v1_apply]
  simp only [lidx_lin, ridx_lin, idx_bias, Ideal.addf_def]
  rfl

/-- A whole layer: the smoothing product of the affine stage, then the larger of it and the zero constant. -/
theorem layer_eq (x : Arr 10000 512) (hg : Arr 10000 10000) (W : Arr 512 512) (b : Vec1 512) :
    Read.val_main_v5 (F := Ideal) x hg W b = prop hg (lin x W (row b)) := by
  funext i
  obtain ⟨p, q, rfl⟩ : ∃ (p : Fin 10000) (q : Fin 512), i = ix2 p q := ⟨i 0, i 1, eq_ix2 i⟩
  rw [Read.val_main_v5_apply, Read.val_main_v4_apply, Read.val_main_call0_v0_apply, Read.val_main_call0_cst_apply,
    lin_eq]
  simp only [lidx_prop, ridx_prop, Ideal.maximumf_def, Ideal.ofBits_def, Ideal.ofBits_zero_f32]
  rfl

/-! ## The three layers

The second and third layers are the first one's operations again, at the previous layer's result and the next
weights and bias. -/

theorem second_eq (x0 : Arr 10000 512) (x1 : Arr 10000 10000) (x2 : Arr 512 512) (x3 : Vec1 512) (x4 : Arr 512 512)
    (x5 : Vec1 512) :
    Read.val_main_v11 (F := Ideal) x0 x1 x2 x3 x4 x5
      = Read.val_main_v5 (F := Ideal) (Read.val_main_v5 (F := Ideal) x0 x1 x2 x3) x1 x4 x5 := rfl

theorem third_eq (x0 : Arr 10000 512) (x1 : Arr 10000 10000) (x2 : Arr 512 512) (x3 : Vec1 512) (x4 : Arr 512 512)
    (x5 : Vec1 512) (x6 : Arr 512 512) (x7 : Vec1 512) :
    Read.val_main_v17 (F := Ideal) x0 x1 x2 x3 x4 x5 x6 x7
      = Read.val_main_v5 (F := Ideal) (Read.val_main_v11 (F := Ideal) x0 x1 x2 x3 x4 x5) x1 x6 x7 := rfl

/-- The reference's last stage is the three layers of the arguments. -/
theorem result_eq (x0 : Arr 10000 512) (x1 : Arr 10000 10000) (x2 : Arr 512 512) (x3 : Vec1 512) (x4 : Arr 512 512)
    (x5 : Vec1 512) (x6 : Arr 512 512) (x7 : Vec1 512) :
    Read.val_main_v17 (F := Ideal) x0 x1 x2 x3 x4 x5 x6 x7 = layers x0 x1 x2 x3 x4 x5 x6 x7 := by
  rw [third_eq, second_eq, layer_eq, layer_eq, layer_eq]
  rfl

/-- Every execution of the reference ends with its result array at the three layers of the argument arrays, the
    arguments unchanged. -/
theorem run_layers (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
        = Cert.Spec.layers (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans ((Read.val_main_v17_eq (F := Ideal) _ _ _ _ _ _ _ _).trans (result_eq _ _ _ _ _ _ _ _)), (h c).2⟩)
    (Cert.ReferenceIdeal.Value.run (F := Ideal) m ρ)

end Cert.ReferenceIdeal.RefValue

end
-- ==== Proof.Bits.Reg0.lean ====
/-
  Region 0 of the kernel's @main: the affine map of the first layer, t1 = x · W1 + b1, computed in ten
  row blocks of 1000. Stated at any float instance: what each point's body finds in its staging buffers
  (the blocks of x, all of W1, the bias row), what it leaves in the output's buffer (the block's affine
  image, as the body's one stored value), and the pipeline's body obligation from the body's triple.
-/
import proofs.«155370_g68118181314611_cont_sun_m_1213_22_alg».proof.Proof.Gen.Kernel.Launch
import proofs.«155370_g68118181314611_cont_sun_m_1213_22_alg».proof.Proof.Gen.Kernel.Skeleton
import proofs.«155370_g68118181314611_cont_sun_m_1213_22_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangle of the output block. -/
abbrev rO : Rect S1000x512 := Rect.unit (s := S1000x512) ![0, 0] S1000x512.size inb_S1000x512_S1000x512_0_0

theorem hz2 : (![0, 0] : Fin 2 → Nat) = fun _ => 0 := funext fun a => by fin_cases a <;> rfl

/-- What the body leaves in the output's staging buffer: its one stored value, the affine image of the
    block of x under W1 and the bias row. -/
def out3 (x0 : Vec F S1000x512 .f32) (x1 : Vec F S512x512 .f32) (x2 : Vec F S1x512 .f32) : Vec F S1000x512 .bf16 :=
  k0_pay1 x0 x1 x2

set_option maxHeartbeats 1000000 in
/-- The body on whole staging memrefs: inputs at contents `x0 x1 x2`, the output's at anything; it ends with the
    inputs as they were and the output's buffer at `out3`. -/
theorem sound_kernel (c : Dev nD) (E : Set ℕ) (i : grid0.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1000x512 .bf16) (harg4 : arg4.IsWhole)
    (x0 : Vec F S1000x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__xform_kernel i arg1 harg1 arg2 harg2 arg3 harg3 arg4 harg4) K := by
  simp only [cc0__xform_kernel_eq_skeleton]; unfold cc0__xform_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz2 inb_S1000x512_S1000x512_0_0 y⟩), View.canon_unit_zero hz2]
  unfold out3
  simp only [View.readAt_eq_ld, View.ld_unit_zero (S := S1000x512) hz2, View.ld_unit_zero (S := S512x512) hz2, View.ld_unit_zero (S := S1x512) hz2]

/-- The proof data of pipeline 0 on core `c`: the arrays as the region finds them; after the body each input's
    buffer at its block and the output's at the block's affine image; the class invariant; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out3 (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.Bits.Reg1.lean ====
/-
  Region 1 of the kernel's @main: the first smoothing layer fused with the second affine map. Each of 25 points
  reads 400 rows of hg, all of t1, the second layer's weights and bias row; it leaves in one output buffer the
  last 1936 columns of its rows of hg, and in the other max (hg_rows · t1) 0 · W2 + b2.
-/
import proofs.«155370_g68118181314611_cont_sun_m_1213_22_alg».proof.Proof.Gen.Kernel.Launch
import proofs.«155370_g68118181314611_cont_sun_m_1213_22_alg».proof.Proof.Gen.Kernel.Skeleton
import proofs.«155370_g68118181314611_cont_sun_m_1213_22_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hz2 : (![0, 0] : Fin 2 → Nat) = fun _ => 0 := funext fun a => by fin_cases a <;> rfl

/-- What the body leaves in the two output buffers, as its two stored values. -/
def out4 (x0 : Vec F S400x10000 .f32) (x1 : Vec F S10000x512 .bf16) (x2 : Vec F S512x512 .bf16) (x3 : Vec F S1x512 .f32) : Vec F S400x512 .bf16 :=
  k1_pay3 x0 x1 x2 x3
def out5 (x0 : Vec F S400x10000 .f32) : Vec F S400x1936 .bf16 :=
  k1_pay2 x0

/-- The proof data of pipeline 1 on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
    | ⟨5, _⟩ => out5 (iblk V c 0 t)
  Φ _ := Pipeline.ΦA spec1 c
  q _ := fullShare
  owed _ := 0

theorem A_eq (c : Dev nD) (w : Fin cfg1.W) : (dat V c).A w = V c (Pipeline.arrRef spec1 w) := by
  dsimp only [dat]
theorem after_4 (c : Dev nD) (t : Fin cfg1.N) :
    (dat V c).after 4 t = out4 (iblk V c 0 t) (iblk V c 1 t) (iblk V c 2 t) (iblk V c 3 t) := by dsimp only [dat]
theorem after_5 (c : Dev nD) (t : Fin cfg1.N) : (dat V c).after 5 t = out5 (iblk V c 0 t) := by dsimp only [dat]

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

set_option maxHeartbeats 4000000 in
/-- The body on whole staging memrefs: inputs at contents `x0 x1 x2 x3`, the two outputs' at anything; it ends with
    the inputs as they were, the first output's buffer at `out4` and the second's at `out5`. -/
theorem sound_kernel (c : Dev nD) (E : Set ℕ) (i : grid1.Coords)
    (arg1 : Memref sig .tc .vmem S400x10000 .f32) (harg1 : arg1.IsWhole) (arg2 : Memref sig .tc .vmem S10000x512 .bf16) (harg2 : arg2.IsWhole)
    (arg3 : Memref sig .tc .vmem S512x512 .bf16) (harg3 : arg3.IsWhole) (arg4 : Memref sig .tc .vmem S1x512 .f32) (harg4 : arg4.IsWhole)
    (arg5 : Memref sig .tc .vmem S400x512 .bf16) (harg5 : arg5.IsWhole) (arg6 : Memref sig .tc .vmem S400x1936 .bf16) (harg6 : arg6.IsWhole)
    (x0 : Vec F S400x10000 .f32) (x1 : Vec F S10000x512 .bf16) (x2 : Vec F S512x512 .bf16) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4 x0 x1 x2 x3) ∗ owns (c : Thread nD τ) arg6 fullShare (out5 x0)) -∗ K ⟨⟩))
      ⊢ wp frame (wpE (defs₀ (F := F)) Variants.none c none) E (cc1__l1_kernel i arg1 harg1 arg2 harg2 arg3 harg3 arg4 harg4 arg5 harg5 arg6 harg6) K := by
  simp only [cc1__l1_kernel_eq_skeleton]; unfold cc1__l1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz2 inb_S400x512_S400x512_0_0 y⟩), View.canon_unit_zero hz2]
    unfold out4
    simp only [View.readAt_eq_ld, View.ld_unit_zero (S := S400x10000) hz2, View.ld_unit_zero (S := S10000x512) hz2, View.ld_unit_zero (S := S512x512) hz2, View.ld_unit_zero (S := S1x512) hz2]
  iexists _; isplitr
  swap; · iexact H5
  ipureintro
  rw [View.read_writes_eq_canon _ _ _ (fun y => ⟨_, List.mem_singleton_self _, View.mem_set_unit_zero hz2 inb_S400x1936_S400x1936_0_0 y⟩), View.canon_unit_zero hz2]
  unfold out5
  simp only [View.readAt_eq_ld, View.ld_unit_zero (S := S400x10000) hz2]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's triple applies; the invariant and
    the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in its exact form, at every point. -/
theorem body_obligation_exact (c : Dev nD) : BodyObligation (dat (F := F) V c) (defs₀ (F := F)) Variants.none () Set.univ := fun t => by
  rw [bigSep_W1, bigSep_W1]
  exact sound_body V c t

/-- The pipeline's body obligation, at every point. -/
theorem body_obligation (c : Dev nD) : BodyObligationLoose (dat (F := F) V c) (defs₀ (F := F)) Variants.none () Set.univ :=
  (body_obligation_exact V c).loose

end Cert.Kernel.Reg1

end
-- ==== Proof.Bits.Reg2.lean ====
/-
  Region 2 of the kernel's @main: the second smoothing layer fused with the third affine map. Each of 25 points
  reads 400 rows of hg in two pieces (columns [0, 8064) from hg itself, the rest from the copy region 1 made),
  all of t2, the third layer's weights and bias row, and leaves max (hg_rows · t2) 0 · W3 + b3, the product over
  the 10000 columns taken as the sum of the two pieces' products.
-/
import proofs.«155370_g68118181314611_cont_sun_m_1213_22_alg».proof.Proof.Gen.Kernel.Launch
import proofs.«155370_g68118181314611_cont_sun_m_1213_22_alg».proof.Proof.Gen.Kernel.Skeleton
import proofs.«155370_g68118181314611_cont_sun_m_1213_22_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

/-- The first window's block of hg at point `t` (400 rows, columns [0, 8064)), as a whole staging buffer: the block
    never reaches the array's end, so the transfer moves every element of the buffer and the filler is never read. -/
def iblk0 (c : Dev nD) (t : Fin cfg2.N) : Vec F S400x8064 .f32 :=
  win2_0.fill (grid2.coords t) (fun _ => Scalar.ofBits .f32 0#32) (iblk V c 0 t)

/-- The two row ranges of t2 the body loads: rows [0, 8064) and rows [8064, 10000). -/
abbrev rTop : Rect S10000x512 := Rect.unit (s := S10000x512) ![0, 0] S8064x512.size inb_S10000x512_S8064x512_0_0
abbrev rBot : Rect S10000x512 := Rect.unit (s := S10000x512) ![8064, 0] S1936x512.size inb_S10000x512_S1936x512_8064_0

/-- What the body leaves in the output buffer, as its one stored value. -/
def out5 (x0 : Vec F S400x8064 .f32) (x1 : Vec F S400x1936 .bf16) (x2 : Vec F S10000x512 .bf16) (x3 : Vec F S512x512 .bf16) (x4 : Vec F S1x512 .f32) : Vec F S400x512 .bf16 :=
  k2_pay1 x0 (View.ld x2 rTop) x1 (View.ld x2 rBot) x3 x4

/-- The proof data of pipeline 2 on core `c`. -/
def dat (c : Dev nD) : Dat τ (Elt F) Unit ℕ (UR sig nD τ) ℕ cfg2 c where
  A w := V c (Pipeline.arrRef spec2 w)
  after w t := match w with
    | ⟨0, _⟩ => iblk0 V c t
    | ⟨1, _⟩ => iblk V c 1 t
    | ⟨2, _⟩ => iblk V c 2 t
    | ⟨3, _⟩ => iblk V c 3 t
    | ⟨4, _⟩ => iblk V c 4 t
    | ⟨5, _⟩ => out5 (iblk0 V c t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]
theorem after_5 (c : Dev nD) (t : Fin cfg2.N) :
    (dat V c).after 5 t = out5 (iblk0 V c t) (iblk V c 1 t) (iblk V c 2 t) (iblk V c 3 t) (iblk V c 4 t) := by dsimp only [dat]

theorem after_0 (c : Dev nD) (t : Fin cfg2.N) : (dat V c).after 0 t = iblk0 V c t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]

/-- No point cuts the first window: its block ends inside the array on both axes. -/
theorem hclip : ∀ t : Fin cfg2.N, ∀ a, (cfg2.win 0).clip (cfg2.grid.coords t) a = none :=
  (by decide +kernel : ∀ t : Fin grid2.N, ∀ a : Fin 2, win2_0.clip (grid2.coords t) a = none)

/-- The first window's buffer, fetched at every point, holds its block: an uncut fill takes nothing from what the
    buffer held. -/
theorem before_0 (c : Dev nD) (t : Fin cfg2.N) (d) : (dat V c).before 0 t d = iblk0 V c t := by
  unfold Dat.before; rw [if_pos (fetch2_0 t)]
  unfold Dat.fetched Dat.blockOf iblk0 iblk
  rw [A_eq]
  exact Pipeline.fill_of_clip_none (cfg := cfg2) 0 _ (hclip t) _ _ _

/-- An uncut input window's current staging buffer holds its block at every point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

set_option maxHeartbeats 4000000 in
/-- The body on whole staging memrefs: inputs at contents `x0 … x4`, the output's at anything; it ends with the
    inputs as they were and the output's buffer at `out5`. -/
theorem sound_kernel (c : Dev nD) (E : Set ℕ) (i : grid2.Coords)
    (arg1 : Memref sig .tc .vmem S400x8064 .f32) (harg1 : arg1.IsWhole) (arg2 : Memref sig .tc .vmem S400x1936 .bf16) (harg2 : arg2.IsWhole)
    (arg3 : Memref sig .tc .vmem S10000x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S400x512 .bf16) (harg6 : arg6.IsWhole)
    (x0 : Vec F S400x8064 .f32) (x1 : Vec F S400x1936 .bf16) (x2 : Vec F S10000x512 .bf16) (x3 : Vec F S512x512 .bf16) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc2__mid_kernel i arg1 harg1 arg2 harg2 arg3 harg3 arg4 harg4 arg5 harg5 arg6 harg6) K := by
  simp only [cc2__mid_kernel_eq_skeleton]; unfold cc2__mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero hz2 inb_S400x512_S400x512_0_0 y⟩), View.canon_unit_zero hz2]
  unfold out5
  simp only [View.readAt_eq_ld, View.ld_unit_zero (S := S400x8064) hz2, View.ld_unit_zero (S := S400x1936) hz2,
    View.ld_unit_zero (S := S512x512) hz2, View.ld_unit_zero (S := S1x512) hz2]

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns: the first window's buffer stated on the part its transfers move (all of it), the others
    whole. -/
def bodyPost (c : Dev nD) (t : Fin cfg2.N) : sProp 𝕄 :=
  iprop((dat V c).Φ t.succ ∗ (dat V c).owesAt () t.succ
    ∗ (∃ d, owns (c : Thread nD τ) (st2_0 t) fullShare
        ((cfg2.win 0).fill (cfg2.grid.coords t) d ((cfg2.win 0).cut (cfg2.grid.coords t) ((dat V c).after 0 t))))
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks, so the body's triple applies; the invariant and
    the core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk0 V c t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (iblk0 V c t); rw [Window.fill_cut]; iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligationLoose (dat (F := F) V c) (defs₀ (F := F)) Variants.none () Set.univ := fun t => by
  rw [bigSep_W2, bigSep_W2]
  exact sound_body V c t

end Cert.Kernel.Reg2

end
-- ==== Proof.Bits.Reg3.lean ====
/-
  Region 3 of the kernel's @main: the third smoothing layer. Each of 25 points reads 400 rows of hg in two pieces
  (columns [0, 8064) from hg itself, the rest from the copy region 1 made) and all of t3, and leaves
  max (hg_rows · t3) 0, the product over the 10000 columns taken as the sum of the two pieces' products.
-/
import proofs.«155370_g68118181314611_cont_sun_m_1213_22_alg».proof.Proof.Gen.Kernel.Launch
import proofs.«155370_g68118181314611_cont_sun_m_1213_22_alg».proof.Proof.Gen.Kernel.Skeleton
import proofs.«155370_g68118181314611_cont_sun_m_1213_22_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hz2 : (![0, 0] : Fin 2 → Nat) = fun _ => 0 := funext fun a => by fin_cases a <;> rfl

/-- The first window's block of hg at point `t` (400 rows, columns [0, 8064)), as a whole staging buffer: the block
    never reaches the array's end, so the transfer moves every element of the buffer and the filler is never read. -/
def iblk0 (c : Dev nD) (t : Fin cfg3.N) : Vec F S400x8064 .f32 :=
  win3_0.fill (grid3.coords t) (fun _ => Scalar.ofBits .f32 0#32) (iblk V c 0 t)

/-- The two row ranges of t3 the body loads: rows [0, 8064) and rows [8064, 10000). -/
abbrev rTop : Rect S10000x512 := Rect.unit (s := S10000x512) ![0, 0] S8064x512.size inb_S10000x512_S8064x512_0_0
abbrev rBot : Rect S10000x512 := Rect.unit (s := S10000x512) ![8064, 0] S1936x512.size inb_S10000x512_S1936x512_8064_0

/-- What the body leaves in the output buffer, as its one stored value. -/
def out3 (x0 : Vec F S400x8064 .f32) (x1 : Vec F S400x1936 .bf16) (x2 : Vec F S10000x512 .bf16) : Vec F S400x512 .f32 :=
  k3_pay1 x0 (View.ld x2 rTop) x1 (View.ld x2 rBot)

/-- The proof data of pipeline 3 on core `c`. -/
def dat (c : Dev nD) : Dat τ (Elt F) Unit ℕ (UR sig nD τ) ℕ cfg3 c where
  A w := V c (Pipeline.arrRef spec3 w)
  after w t := match w with
    | ⟨0, _⟩ => iblk0 V c t
    | ⟨1, _⟩ => iblk V c 1 t
    | ⟨2, _⟩ => iblk V c 2 t
    | ⟨3, _⟩ => out3 (iblk0 V c t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := by
  dsimp only [dat]
theorem after_3 (c : Dev nD) (t : Fin cfg3.N) :
    (dat V c).after 3 t = out3 (iblk0 V c t) (iblk V c 1 t) (iblk V c 2 t) := by dsimp only [dat]

theorem after_0 (c : Dev nD) (t : Fin cfg3.N) : (dat V c).after 0 t = iblk0 V c t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]

/-- No point cuts the first window: its block ends inside the array on both axes. -/
theorem hclip : ∀ t : Fin cfg3.N, ∀ a, (cfg3.win 0).clip (cfg3.grid.coords t) a = none :=
  (by decide +kernel : ∀ t : Fin grid3.N, ∀ a : Fin 2, win3_0.clip (grid3.coords t) a = none)

/-- The first window's buffer, fetched at every point, holds its block: an uncut fill takes nothing from what the
    buffer held. -/
theorem before_0 (c : Dev nD) (t : Fin cfg3.N) (d) : (dat V c).before 0 t d = iblk0 V c t := by
  unfold Dat.before; rw [if_pos (fetch3_0 t)]
  unfold Dat.fetched Dat.blockOf iblk0 iblk
  rw [A_eq]
  exact Pipeline.fill_of_clip_none (cfg := cfg3) 0 _ (hclip t) _ _ _

/-- An uncut input window's current staging buffer holds its block at every point, fetched there or not. -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

set_option maxHeartbeats 4000000 in
/-- The body on whole staging memrefs: inputs at contents `x0 x1 x2`, the output's at anything; it ends with the
    inputs as they were and the output's buffer at `out3`. -/
theorem sound_kernel (c : Dev nD) (E : Set ℕ) (i : grid3.Coords)
    (arg1 : Memref sig .tc .vmem S400x8064 .f32) (harg1 : arg1.IsWhole) (arg2 : Memref sig .tc .vmem S400x1936 .bf16) (harg2 : arg2.IsWhole)
    (arg3 : Memref sig .tc .vmem S10000x512 .bf16) (harg3 : arg3.IsWhole) (arg4 : Memref sig .tc .vmem S400x512 .f32) (harg4 : arg4.IsWhole)
    (x0 : Vec F S400x8064 .f32) (x1 : Vec F S400x1936 .bf16) (x2 : Vec F S10000x512 .bf16)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc3__last_kernel i arg1 harg1 arg2 harg2 arg3 harg3 arg4 harg4) K := by
  simp only [cc3__last_kernel_eq_skeleton]; unfold cc3__last_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz2 inb_S400x512_S400x512_0_0 y⟩), View.canon_unit_zero hz2]
  unfold out3
  simp only [View.readAt_eq_ld, View.ld_unit_zero (S := S400x8064) hz2, View.ld_unit_zero (S := S400x1936) hz2]

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns: the first window's buffer stated on the part its transfers move (all of it), the others
    whole. -/
def bodyPost (c : Dev nD) (t : Fin cfg3.N) : sProp 𝕄 :=
  iprop((dat V c).Φ t.succ ∗ (dat V c).owesAt () t.succ
    ∗ (∃ d, owns (c : Thread nD τ) (st3_0 t) fullShare
        ((cfg3.win 0).fill (cfg3.grid.coords t) d ((cfg3.win 0).cut (cfg3.grid.coords t) ((dat V c).after 0 t))))
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

/-- The body at any point: the inputs' memrefs hold their blocks, so the body's triple applies; the invariant and
    the core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk0 V c t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (iblk0 V c t); rw [Window.fill_cut]; iexact H0
  isplitl [H1]; · iexact H1
  isplitl [H2]; · iexact H2
  iexact H3

/-- The pipeline's body obligation, at every point. -/
theorem body_obligation (c : Dev nD) : BodyObligationLoose (dat (F := F) V c) (defs₀ (F := F)) Variants.none () Set.univ := fun t => by
  rw [bigSep_W3, bigSep_W3]
  exact sound_body V c t

end Cert.Kernel.Reg3

end
-- ==== Proof.Bits.Bounds.lean ====
/-
  The contents of the TensorCore's buffers at each boundary of the kernel's @main, as a fold from the launch
  memory: a stretch of host operations applies its operations; a region leaves each of its windows' arrays at
  what its write-backs leave and every other buffer as it found it.
-/
import proofs.«155370_g68118181314611_cont_sun_m_1213_22_alg».proof.Proof.Bits.Reg0
import proofs.«155370_g68118181314611_cont_sun_m_1213_22_alg».proof.Proof.Bits.Reg1
import proofs.«155370_g68118181314611_cont_sun_m_1213_22_alg».proof.Proof.Bits.Reg2
import proofs.«155370_g68118181314611_cont_sun_m_1213_22_alg».proof.Proof.Bits.Reg3
import proofs.«155370_g68118181314611_cont_sun_m_1213_22_alg».proof.Proof.Gen.Kernel.Regions
import Idealize.ShloMosaic.Lib.Pipeline.RegionsLoop
import Idealize.ShloMosaic.Lib.Pipeline.FrameSuffix

set_option maxRecDepth 16384

noncomputable section

namespace Cert.Kernel.Bounds

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (Reg0.dat (V1 m) c).arrAt w cfg0.N
theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (Reg1.dat (V3 m) c).arrAt w cfg1.N
theorem W4_arr (c : Dev nD) (w : Fin cfg1.W) :
    W4 m c (Proc.devRef .tc (Pipeline.arrRef spec1 w)) = (Reg1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Reg1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit (region 3's entry: no host operation between them). -/
def W6 (c : Dev nD) : Valuation τ sig (Elt F) :=
  Pipeline.withArrays spec2 c (W5 m c) fun w => (Reg2.dat (V5 m) c).arrAt w cfg2.N
theorem W6_arr (c : Dev nD) (w : Fin cfg2.W) :
    W6 m c (Proc.devRef .tc (Pipeline.arrRef spec2 w)) = (Reg2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Reg2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- At region 3's exit: the end of @main. -/
def W7 (c : Dev nD) : Valuation τ sig (Elt F) :=
  Pipeline.withArrays spec3 c (W6 m c) fun w => (Reg3.dat (V6 m) c).arrAt w cfg3.N
theorem W7_arr (c : Dev nD) (w : Fin cfg3.W) :
    W7 m c (Proc.devRef .tc (Pipeline.arrRef spec3 w)) = (Reg3.dat (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (Reg3.dat (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

end Cert.Kernel.Bounds

end
-- ==== Proof.Bits.Run.lean ====
/-
  The launch of the kernel's @main: three stretches of host operations and four kernel regions, in order, each
  region entered from the buffer contents the segment before it left. Every weakly fair execution terminates, and
  in every final state each unscoped buffer of the TensorCore holds the contents the fold of the boundaries gives
  it at the end — the result array among them, and the arguments.
-/
import proofs.«155370_g68118181314611_cont_sun_m_1213_22_alg».proof.Proof.Bits.Bounds
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen Cert.Kernel.Bounds
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
  | ⟨2, _⟩ => fun c => Reg2.dat (V5 m) c
  | ⟨3, _⟩ => fun c => Reg3.dat (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

-- a library lemma stated over the pinned configuration unifies with the printed one only when unification may unfold
-- plain definitions in a metavariable's type
set_option backward.isDefEq.respectTransparency.types false in
/-- Region 0 over the thread state: entered from every unscoped buffer at the boundary's contents, left at the next
    boundary's. Its arrays are split out of the unscoped buffers and put back at their exit contents; the generator
    register goes into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the boundary's contents, left at the next
    boundary's. Its arrays are split out of the unscoped buffers and put back at their exit contents; the generator
    register goes into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Reg1.body_obligation (V3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at the boundary's contents, left at the next
    boundary's. Its arrays are split out of the unscoped buffers and put back at their exit contents; the generator
    register goes into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := Reg2.body_obligation (V5 m) c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at the boundary's contents, left at the next
    boundary's. Its arrays are split out of the unscoped buffers and put back at their exit contents; the generator
    register goes into the pipeline's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := Reg3.body_obligation (V6 m) c
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- From any memory with zero counters, every weakly fair execution of @main on the TensorCores terminates, nothing
    faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Run

end
-- ==== Proof.Bits.Entry.lean ====
/-
  The boundaries' contents read at the references the regions and the claims use: every argument array reaches the
  end of @main holding its launch contents (no host operation writes one and a region only reads it), and each
  region is entered with its windows' arrays at the arguments, at a host operation's image of an argument, or at
  what an earlier region's write-backs left.
-/
import proofs.«155370_g68118181314611_cont_sun_m_1213_22_alg».proof.Proof.Bits.Bounds

set_option maxRecDepth 16384

noncomputable section

namespace Cert.Kernel.Entry

open Cert.Kernel Cert.Kernel.Gen Cert.Kernel.Bounds
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## One step back through a boundary -/

/-- A host stretch leaves a buffer it does not write as it found it. -/
theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h

/-- A region leaves an input window's array as it found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Reg0.dat (V1 m) c).arrAt_in w hw _).trans (Reg0.A_eq (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((Reg1.dat (V3 m) c).arrAt_in w hw _).trans (Reg1.A_eq (V3 m) c w))
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((Reg2.dat (V5 m) c).arrAt_in w hw _).trans (Reg2.A_eq (V5 m) c w))
theorem W7_in (c : Dev nD) (w : Fin cfg3.W) (hw : (cfg3.win w).isOut = false) :
    W7 m c (Proc.devRef .tc (Pipeline.arrRef spec3 w)) = W6 m c (Proc.devRef .tc (Pipeline.arrRef spec3 w)) :=
  (W7_arr m c w).trans (((Reg3.dat (V6 m) c).arrAt_in w hw _).trans (Reg3.A_eq (V6 m) c w))

/-! ## The arguments at the end -/

theorem W7_main_arg0 (c : Dev nD) : W7 m c (Proc.devRef .tc main_arg0) = m ((c : Thread nD τ).loc main_arg0) :=
  (W7_of_ne m c main_arg0 (by decide)).trans <| (W6_of_ne m c main_arg0 (by decide)).trans <| (W5_keep m c main_arg0 (by decide)).trans <| (W4_of_ne m c main_arg0 (by decide)).trans <| (W3_keep m c main_arg0 (by decide)).trans <| (W2_in m c 0 rfl).trans <| (W1_keep m c main_arg0 (by decide)).trans rfl
theorem W7_main_arg1 (c : Dev nD) : W7 m c (Proc.devRef .tc main_arg1) = m ((c : Thread nD τ).loc main_arg1) :=
  (W7_in m c 0 rfl).trans <| (W6_in m c 0 rfl).trans <| (W5_keep m c main_arg1 (by decide)).trans <| (W4_in m c 0 rfl).trans <| (W3_keep m c main_arg1 (by decide)).trans <| (W2_of_ne m c main_arg1 (by decide)).trans <| (W1_keep m c main_arg1 (by decide)).trans rfl
theorem W7_main_arg2 (c : Dev nD) : W7 m c (Proc.devRef .tc main_arg2) = m ((c : Thread nD τ).loc main_arg2) :=
  (W7_of_ne m c main_arg2 (by decide)).trans <| (W6_of_ne m c main_arg2 (by decide)).trans <| (W5_keep m c main_arg2 (by decide)).trans <| (W4_of_ne m c main_arg2 (by decide)).trans <| (W3_keep m c main_arg2 (by decide)).trans <| (W2_in m c 1 rfl).trans <| (W1_keep m c main_arg2 (by decide)).trans rfl
theorem W7_main_arg3 (c : Dev nD) : W7 m c (Proc.devRef .tc main_arg3) = m ((c : Thread nD τ).loc main_arg3) :=
  (W7_of_ne m c main_arg3 (by decide)).trans <| (W6_of_ne m c main_arg3 (by decide)).trans <| (W5_keep m c main_arg3 (by decide)).trans <| (W4_of_ne m c main_arg3 (by decide)).trans <| (W3_keep m c main_arg3 (by decide)).trans <| (W2_of_ne m c main_arg3 (by decide)).trans <| (W1_keep m c main_arg3 (by decide)).trans rfl
theorem W7_main_arg4 (c : Dev nD) : W7 m c (Proc.devRef .tc main_arg4) = m ((c : Thread nD τ).loc main_arg4) :=
  (W7_of_ne m c main_arg4 (by decide)).trans <| (W6_of_ne m c main_arg4 (by decide)).trans <| (W5_keep m c main_arg4 (by decide)).trans <| (W4_of_ne m c main_arg4 (by decide)).trans <| (W3_keep m c main_arg4 (by decide)).trans <| (W2_of_ne m c main_arg4 (by decide)).trans <| (W1_keep m c main_arg4 (by decide)).trans rfl
theorem W7_main_arg5 (c : Dev nD) : W7 m c (Proc.devRef .tc main_arg5) = m ((c : Thread nD τ).loc main_arg5) :=
  (W7_of_ne m c main_arg5 (by decide)).trans <| (W6_of_ne m c main_arg5 (by decide)).trans <| (W5_keep m c main_arg5 (by decide)).trans <| (W4_of_ne m c main_arg5 (by decide)).trans <| (W3_keep m c main_arg5 (by decide)).trans <| (W2_of_ne m c main_arg5 (by decide)).trans <| (W1_keep m c main_arg5 (by decide)).trans rfl
theorem W7_main_arg6 (c : Dev nD) : W7 m c (Proc.devRef .tc main_arg6) = m ((c : Thread nD τ).loc main_arg6) :=
  (W7_of_ne m c main_arg6 (by decide)).trans <| (W6_of_ne m c main_arg6 (by decide)).trans <| (W5_keep m c main_arg6 (by decide)).trans <| (W4_of_ne m c main_arg6 (by decide)).trans <| (W3_keep m c main_arg6 (by decide)).trans <| (W2_of_ne m c main_arg6 (by decide)).trans <| (W1_keep m c main_arg6 (by decide)).trans rfl
theorem W7_main_arg7 (c : Dev nD) : W7 m c (Proc.devRef .tc main_arg7) = m ((c : Thread nD τ).loc main_arg7) :=
  (W7_of_ne m c main_arg7 (by decide)).trans <| (W6_of_ne m c main_arg7 (by decide)).trans <| (W5_keep m c main_arg7 (by decide)).trans <| (W4_of_ne m c main_arg7 (by decide)).trans <| (W3_keep m c main_arg7 (by decide)).trans <| (W2_of_ne m c main_arg7 (by decide)).trans <| (W1_keep m c main_arg7 (by decide)).trans rfl

/-! ## What the regions are entered with -/

/-- Region 0 reads x and W1 as launched, and the first bias as a one-row matrix. -/
theorem V1_arg0 (c : Dev nD) : Bounds.V1 m c main_arg0 = m ((c : Thread nD τ).loc main_arg0) := W1_keep m c main_arg0 (by decide)
theorem V1_arg2 (c : Dev nD) : Bounds.V1 m c main_arg2 = m ((c : Thread nD τ).loc main_arg2) := W1_keep m c main_arg2 (by decide)
theorem V1_v0 (c : Dev nD) : Bounds.V1 m c main_v0 = shapeCast S1x512 (m ((c : Thread nD τ).loc main_arg3)) shapeCasts_S512_S1x512 := by
  show StableHlo.after hostOps0 (fun b => m (c, b)) (Proc.devRef .tc main_v0) = _
  after_results
  rfl

/-- No region and no host stretch before region 1 changes an argument: each later boundary reads it as launched. -/
theorem W2_arg (c : Dev nD) (r : Ref sig .tc) (h0 : ∀ w, Pipeline.arrRef spec0 w ≠ r) (h1 : r ∉ hostOps0_W) :
    W2 m c (Proc.devRef .tc r) = m ((c : Thread nD τ).loc r) :=
  (W2_of_ne m c r h0).trans (W1_keep m c r h1)

/-- Region 1 reads hg as launched, region 0's output, the second layer's weights in the narrower format (the same
    numbers over the extended reals) and its bias as a one-row matrix. -/
theorem V3_arg1 (c : Dev nD) : Bounds.V3 m c main_arg1 = m ((c : Thread nD τ).loc main_arg1) :=
  (W3_keep m c main_arg1 (by decide)).trans (W2_arg m c main_arg1 (by decide) (by decide))
theorem V3_v1 (c : Dev nD) : Bounds.V3 m c main_v1 = (Reg0.dat (Bounds.V1 m) c).arrAt 3 cfg0.N :=
  (W3_keep m c main_v1 (by decide)).trans (W2_arr m c 3)
theorem V3_v2 (c : Dev nD) : Bounds.V3 m c main_v2 = truncf .bf16 (m ((c : Thread nD τ).loc main_arg4)) bitsLt_bf16_f32 := by
  have e : W2 m c (Proc.devRef .tc main_arg4) = m ((c : Thread nD τ).loc main_arg4) := W2_arg m c main_arg4 (by decide) (by decide)
  show StableHlo.after hostOps1 (W2 m c) (Proc.devRef .tc main_v2) = _
  after_results
  rw [e]
theorem V3_v3 (c : Dev nD) : Bounds.V3 m c main_v3 = shapeCast S1x512 (m ((c : Thread nD τ).loc main_arg5)) shapeCasts_S512_S1x512 := by
  have e : W2 m c (Proc.devRef .tc main_arg5) = m ((c : Thread nD τ).loc main_arg5) := W2_arg m c main_arg5 (by decide) (by decide)
  show StableHlo.after hostOps1 (W2 m c) (Proc.devRef .tc main_v3) = _
  after_results
  rw [e]
  rfl

/-- An argument that is no window's array of regions 0 and 1 and that the first two host stretches do not write
    is, at region 1's exit, as launched. -/
theorem W4_arg (c : Dev nD) (r : Ref sig .tc) (h0 : ∀ w, Pipeline.arrRef spec0 w ≠ r) (h1 : r ∉ hostOps0_W)
    (h2 : r ∉ hostOps1_W) (h3 : ∀ w, Pipeline.arrRef spec1 w ≠ r) :
    W4 m c (Proc.devRef .tc r) = m ((c : Thread nD τ).loc r) :=
  (W4_of_ne m c r h3).trans <| (W3_keep m c r h2).trans (W2_arg m c r h0 h1)

/-- Region 2 reads hg as launched, region 1's two outputs, the third layer's weights in the narrower format and
    its bias as a one-row matrix. -/
theorem V5_arg1 (c : Dev nD) : Bounds.V5 m c main_arg1 = m ((c : Thread nD τ).loc main_arg1) :=
  (W5_keep m c main_arg1 (by decide)).trans <| (W4_in m c 0 rfl).trans (V3_arg1 m c)
theorem V5_v4_0 (c : Dev nD) : Bounds.V5 m c main_v4_0 = (Reg1.dat (Bounds.V3 m) c).arrAt 4 cfg1.N :=
  (W5_keep m c main_v4_0 (by decide)).trans (W4_arr m c 4)
theorem V5_v4_1 (c : Dev nD) : Bounds.V5 m c main_v4_1 = (Reg1.dat (Bounds.V3 m) c).arrAt 5 cfg1.N :=
  (W5_keep m c main_v4_1 (by decide)).trans (W4_arr m c 5)
theorem V5_v5 (c : Dev nD) : Bounds.V5 m c main_v5 = truncf .bf16 (m ((c : Thread nD τ).loc main_arg6)) bitsLt_bf16_f32 := by
  have e : W4 m c (Proc.devRef .tc main_arg6) = m ((c : Thread nD τ).loc main_arg6) :=
    W4_arg m c main_arg6 (by decide) (by decide) (by decide) (by decide)
  show StableHlo.after hostOps2 (W4 m c) (Proc.devRef .tc main_v5) = _
  after_results
  rw [e]
theorem V5_v6 (c : Dev nD) : Bounds.V5 m c main_v6 = shapeCast S1x512 (m ((c : Thread nD τ).loc main_arg7)) shapeCasts_S512_S1x512 := by
  have e : W4 m c (Proc.devRef .tc main_arg7) = m ((c : Thread nD τ).loc main_arg7) :=
    W4_arg m c main_arg7 (by decide) (by decide) (by decide) (by decide)
  show StableHlo.after hostOps2 (W4 m c) (Proc.devRef .tc main_v6) = _
  after_results
  rw [e]
  rfl

/-- Region 3 reads hg as launched, region 1's copy of its last columns, and region 2's output. -/
theorem V6_arg1 (c : Dev nD) : Bounds.V6 m c main_arg1 = m ((c : Thread nD τ).loc main_arg1) :=
  (W6_in m c 0 rfl).trans (V5_arg1 m c)
theorem V6_v4_1 (c : Dev nD) : Bounds.V6 m c main_v4_1 = (Reg1.dat (Bounds.V3 m) c).arrAt 5 cfg1.N :=
  (W6_in m c 1 rfl).trans (V5_v4_1 m c)
theorem V6_v7 (c : Dev nD) : Bounds.V6 m c main_v7 = (Reg2.dat (Bounds.V5 m) c).arrAt 5 cfg2.N :=
  W6_arr m c 5

/-- The result array at the end: what region 3's write-backs leave. -/
theorem W7_v8 (c : Dev nD) : W7 m c (Proc.devRef .tc main_v8) = (Reg3.dat (Bounds.V6 m) c).arrAt 3 cfg3.N :=
  W7_arr m c 3

end Cert.Kernel.Entry

end
-- ==== Proof.lean ====
/-
  The certificate: a kernel of four pallas_calls computing three layers h ↦ max (hg · (h · W + b)) 0 against its
  jnp reference.
  The frames of the two kernel programs come from one launch of @main's seven segments (three stretches of host
  operations, four kernel regions), whose post names every buffer of the TensorCore at the end: the arguments are
  read back to their launch contents. The reference's frame is its run with the result dropped. The ideal pass
  rewrote nothing, so `preserves` is trivial. For `algebraic`, over the extended reals the kernel's result array
  is the three layers of the arguments (each region's output is a layer map of what it was entered with; the later
  regions cut the contraction over hg's columns at 8064, and a sum is the sum of its two ranges), and so is the
  reference's.
-/
import proofs.«155370_g68118181314611_cont_sun_m_1213_22_alg».proof.Defs
import proofs.«155370_g68118181314611_cont_sun_m_1213_22_alg».proof.Proof.Gen.Kernel
import proofs.«155370_g68118181314611_cont_sun_m_1213_22_alg».proof.Proof.Gen.KernelIdeal
import proofs.«155370_g68118181314611_cont_sun_m_1213_22_alg».proof.Proof.Gen.ReferenceIdeal
import proofs.«155370_g68118181314611_cont_sun_m_1213_22_alg».proof.Proof.Gen.Pre_finite_inputs
import proofs.«155370_g68118181314611_cont_sun_m_1213_22_alg».proof.Proof.Run
import proofs.«155370_g68118181314611_cont_sun_m_1213_22_alg».proof.Proof.Entry
import proofs.«155370_g68118181314611_cont_sun_m_1213_22_alg».proof.Proof.KValue
import proofs.«155370_g68118181314611_cont_sun_m_1213_22_alg».proof.Proof.Ref
import proofs.«155370_g68118181314611_cont_sun_m_1213_22_alg».proof.Proof.Bits.Run
import proofs.«155370_g68118181314611_cont_sun_m_1213_22_alg».proof.Proof.Bits.Entry
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ =>
  (θ_run Cert.Kernel.defs _ _).mono
    (fun r h c => ⟨(h c _ (Cert.Kernel.Run.mem_uc Cert.Kernel.main_arg0 (by decide))).trans (Cert.Kernel.Entry.W7_main_arg0 m c),
      (h c _ (Cert.Kernel.Run.mem_uc Cert.Kernel.main_arg1 (by decide))).trans (Cert.Kernel.Entry.W7_main_arg1 m c),
      (h c _ (Cert.Kernel.Run.mem_uc Cert.Kernel.main_arg2 (by decide))).trans (Cert.Kernel.Entry.W7_main_arg2 m c),
      (h c _ (Cert.Kernel.Run.mem_uc Cert.Kernel.main_arg3 (by decide))).trans (Cert.Kernel.Entry.W7_main_arg3 m c),
      (h c _ (Cert.Kernel.Run.mem_uc Cert.Kernel.main_arg4 (by decide))).trans (Cert.Kernel.Entry.W7_main_arg4 m c),
      (h c _ (Cert.Kernel.Run.mem_uc Cert.Kernel.main_arg5 (by decide))).trans (Cert.Kernel.Entry.W7_main_arg5 m c),
      (h c _ (Cert.Kernel.Run.mem_uc Cert.Kernel.main_arg6 (by decide))).trans (Cert.Kernel.Entry.W7_main_arg6 m c),
      (h c _ (Cert.Kernel.Run.mem_uc Cert.Kernel.main_arg7 (by decide))).trans (Cert.Kernel.Entry.W7_main_arg7 m c)⟩)
    (Cert.Kernel.Run.run_all (F := Bits) m ρ)

/-- The idealized kernel runs and leaves its arguments as launched. -/
theorem frame_kernelIdeal : Cert.frame_KernelIdeal := fun m ρ _ =>
  (θ_run Cert.KernelIdeal.defs _ _).mono
    (fun r h c => ⟨(h c _ (Cert.KernelIdeal.Run.mem_uc Cert.KernelIdeal.main_arg0 (by decide))).trans (Cert.KernelIdeal.Entry.W7_main_arg0 m c),
      (h c _ (Cert.KernelIdeal.Run.mem_uc Cert.KernelIdeal.main_arg1 (by decide))).trans (Cert.KernelIdeal.Entry.W7_main_arg1 m c),
      (h c _ (Cert.KernelIdeal.Run.mem_uc Cert.KernelIdeal.main_arg2 (by decide))).trans (Cert.KernelIdeal.Entry.W7_main_arg2 m c),
      (h c _ (Cert.KernelIdeal.Run.mem_uc Cert.KernelIdeal.main_arg3 (by decide))).trans (Cert.KernelIdeal.Entry.W7_main_arg3 m c),
      (h c _ (Cert.KernelIdeal.Run.mem_uc Cert.KernelIdeal.main_arg4 (by decide))).trans (Cert.KernelIdeal.Entry.W7_main_arg4 m c),
      (h c _ (Cert.KernelIdeal.Run.mem_uc Cert.KernelIdeal.main_arg5 (by decide))).trans (Cert.KernelIdeal.Entry.W7_main_arg5 m c),
      (h c _ (Cert.KernelIdeal.Run.mem_uc Cert.KernelIdeal.main_arg6 (by decide))).trans (Cert.KernelIdeal.Entry.W7_main_arg6 m c),
      (h c _ (Cert.KernelIdeal.Run.mem_uc Cert.KernelIdeal.main_arg7 (by decide))).trans (Cert.KernelIdeal.Entry.W7_main_arg7 m c)⟩)
    (Cert.KernelIdeal.Run.run_all (F := Ideal) m ρ)

/-- The reference runs and leaves its arguments as launched. -/
theorem frame_reference : Cert.frame_ReferenceIdeal := fun m ρ _ =>
  (θ_run Cert.ReferenceIdeal.defs _ _).mono (fun _ h c => (h c).2) (Cert.ReferenceIdeal.RefValue.run_layers m ρ)

/-- Both idealized programs end with the three layers of the arguments in their result arrays. -/
theorem algebraic : Cert.algebraic_KernelIdeal_ReferenceIdeal := by
  intro m ρ m' ρ' _ hagree
  refine ⟨fun c => Cert.Spec.layers (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c _ (Cert.KernelIdeal.Run.mem_uc Cert.KernelIdeal.main_v8 (by decide))).trans (Cert.KernelIdeal.KValue.result_eq m c),
      (h c _ (Cert.KernelIdeal.Run.mem_uc Cert.KernelIdeal.main_arg0 (by decide))).trans (Cert.KernelIdeal.Entry.W7_main_arg0 m c),
      (h c _ (Cert.KernelIdeal.Run.mem_uc Cert.KernelIdeal.main_arg1 (by decide))).trans (Cert.KernelIdeal.Entry.W7_main_arg1 m c),
      (h c _ (Cert.KernelIdeal.Run.mem_uc Cert.KernelIdeal.main_arg2 (by decide))).trans (Cert.KernelIdeal.Entry.W7_main_arg2 m c),
      (h c _ (Cert.KernelIdeal.Run.mem_uc Cert.KernelIdeal.main_arg3 (by decide))).trans (Cert.KernelIdeal.Entry.W7_main_arg3 m c),
      (h c _ (Cert.KernelIdeal.Run.mem_uc Cert.KernelIdeal.main_arg4 (by decide))).trans (Cert.KernelIdeal.Entry.W7_main_arg4 m c),
      (h c _ (Cert.KernelIdeal.Run.mem_uc Cert.KernelIdeal.main_arg5 (by decide))).trans (Cert.KernelIdeal.Entry.W7_main_arg5 m c),
      (h c _ (Cert.KernelIdeal.Run.mem_uc Cert.KernelIdeal.main_arg6 (by decide))).trans (Cert.KernelIdeal.Entry.W7_main_arg6 m c),
      (h c _ (Cert.KernelIdeal.Run.mem_uc Cert.KernelIdeal.main_arg7 (by decide))).trans (Cert.KernelIdeal.Entry.W7_main_arg7 m c)⟩)
      (Cert.KernelIdeal.Run.run_all (F := Ideal) m ρ)
  · refine (θ_run Cert.ReferenceIdeal.defs _ _).mono (fun r h c => ⟨?_, (h c).2⟩) (Cert.ReferenceIdeal.RefValue.run_layers m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
